-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.truncf_extf.Statement Cert.KernelIdeal.S256x2048 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S4x2048x1024 .f32) (main_arg1 : FVec F S1024x1024 .f32) (main_arg2 : FVec F S1024x1024 .f32) (main_arg3 : FVec F S1024x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S4x2048x1024 : Shape := ⟨3, ![4, 2048, 1024]⟩
abbrev S1024x1024 : Shape := ⟨2, ![1024, 1024]⟩
abbrev S1x2048x1024 : Shape := ⟨3, ![1, 2048, 1024]⟩
abbrev S1x256x1024 : Shape := ⟨3, ![1, 256, 1024]⟩
abbrev S2048x1024 : Shape := ⟨2, ![2048, 1024]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 8
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .bf16⟩
  | .hbm, ⟨5, _⟩ => ⟨S1024x1024, .bf16⟩
  | .hbm, ⟨6, _⟩ => ⟨S1024x1024, .bf16⟩
  | .hbm, ⟨7, _⟩ => ⟨S4x2048x1024, .f32⟩
  | .local _ .vmem, ⟨0, _⟩ => ⟨S1x2048x1024, .f32⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x256x1024, .f32⟩
  | .local _ .vmem, ⟨5, _⟩ => ⟨S1x256x1024, .f32⟩
  | .local _ .vmem, ⟨6, _⟩ => ⟨S2048x1024, .bf16⟩
  | .local _ .vmem, ⟨7, _⟩ => ⟨S2048x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_mult1 : BitVec 32 :=
  let c0_i32_15 : BitVec 32 := 0#32
  let c256_i32_16 : BitVec 32 := 256#32
  let v31 : BitVec 32 := Scalar.muli c0_i32_15 c256_i32_16
  v31
def k0_off1 (c0_i32_15 : BitVec 32) : Fin 3 → Nat :=
  let c0_17 : Index := 0#32
  let c256_i32_16 : BitVec 32 := 256#32
  let v31 : BitVec 32 := Scalar.muli c0_i32_15 c256_i32_16
  let v32 : BitVec 32 := v31
  let v33 : Index := Scalar.indexCast v32
  let c0_18 : Index := 0#32
  ![0, v33.toNat, 0]
def k0_off2 (c0_i32_15 : BitVec 32) : Fin 2 → Nat :=
  let c256_i32_16 : BitVec 32 := 256#32
  let v31 : BitVec 32 := Scalar.muli c0_i32_15 c256_i32_16
  let v32 : BitVec 32 := v31
  let v44 : Index := Scalar.indexCast v32
  let c0_25 : Index := 0#32
  ![v44.toNat, 0]
def k0_mult2 : BitVec 32 :=
  let c1_i32 : BitVec 32 := 1#32
  let c256_i32_27 : BitVec 32 := 256#32
  let v53 : BitVec 32 := Scalar.muli c1_i32 c256_i32_27
  v53
def k0_mult3 : BitVec 32 :=
  let c2_i32 : BitVec 32 := 2#32
  let c256_i32_38 : BitVec 32 := 256#32
  let v75 : BitVec 32 := Scalar.muli c2_i32 c256_i32_38
  v75
def k0_mult4 : BitVec 32 :=
  let c3_i32 : BitVec 32 := 3#32
  let c256_i32_49 : BitVec 32 := 256#32
  let v97 : BitVec 32 := Scalar.muli c3_i32 c256_i32_49
  v97
def k0_mult5 : BitVec 32 :=
  let c4_i32 : BitVec 32 := 4#32
  let c256_i32_60 : BitVec 32 := 256#32
  let v119 : BitVec 32 := Scalar.muli c4_i32 c256_i32_60
  v119
def k0_mult6 : BitVec 32 :=
  let c5_i32 : BitVec 32 := 5#32
  let c256_i32_71 : BitVec 32 := 256#32
  let v141 : BitVec 32 := Scalar.muli c5_i32 c256_i32_71
  v141
def k0_mult7 : BitVec 32 :=
  let c6_i32 : BitVec 32 := 6#32
  let c256_i32_82 : BitVec 32 := 256#32
  let v163 : BitVec 32 := Scalar.muli c6_i32 c256_i32_82
  v163
def k0_mult8 : BitVec 32 :=
  let c7_i32 : BitVec 32 := 7#32
  let c256_i32_93 : BitVec 32 := 256#32
  let v185 : BitVec 32 := Scalar.muli c7_i32 c256_i32_93
  v185
def k0_mult9 (i : grid0.Coords) : BitVec 32 :=
  let arg1 : BitVec 32 := BitVec.ofNat 32 (i 1).val
  let c256_i32 : BitVec 32 := 256#32
  let v3 : BitVec 32 := Scalar.muli arg1 c256_i32
  v3
def k0_off3 (i : grid0.Coords) : Fin 3 → Nat :=
  let c0 : Index := 0#32
  let arg1 : BitVec 32 := BitVec.ofNat 32 (i 1).val
  let c256_i32 : BitVec 32 := 256#32
  let v3 : BitVec 32 := Scalar.muli arg1 c256_i32
  let v4 : BitVec 32 := v3
  let v5 : Index := Scalar.indexCast v4
  let c0_1 : Index := 0#32
  ![0, v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bitsLt_bf16_f32 : FTy.bits .bf16 < FTy.bits .f32
  h_S1x256x1024 : 0 < S1x256x1024.numel
  shapeCasts_S1x256x1024_S256x1024 : S1x256x1024.ShapeCasts S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  h_S256x1024 : 0 < S256x1024.numel
  shapeCasts_S256x1024_S256x1024 : S256x1024.ShapeCasts S256x1024
  inb_S2048x1024_S2048x1024_0_0 : ∀ a, (![0, 0] : Fin 2 → Nat) a + S2048x1024.size a ≤ S2048x1024.size a
  h_S2048x1024 : 0 < S2048x1024.numel
  reduces_S256x2048_S256 : S256x2048.Reduces [1] S256
  shapeCasts_S256_S256x1 : S256.ShapeCasts S256x1
  broadcasts_S256x1_S256x2048 : S256x1.Broadcasts S256x2048
  broadcasts_S256x1_S256x1024 : S256x1.Broadcasts S256x1024
  inb_S1x256x1024_S1x256x1024_0_0_0 : ∀ a, (![0, 0, 0] : Fin 3 → Nat) a + S1x256x1024.size a ≤ S1x256x1024.size a
  shapeCasts_S256x1024_S1x256x1024 : S256x1024.ShapeCasts S1x256x1024
  dot_S256x1024_S1024x1024_S256x1024_1_1_0_0_n_n_wf : DotDims.WF S256x1024 S1024x1024 S256x1024 [1] [1] [0] [0] [] []
  dot_S256x1024_S2048x1024_S256x2048_1_1_0_0_n_n_wf : DotDims.WF S256x1024 S2048x1024 S256x2048 [1] [1] [0] [0] [] []
  dot_S256x2048_S2048x1024_S256x1024_1_0_0_1_n_n_wf : DotDims.WF S256x2048 S2048x1024 S256x1024 [1] [0] [0] [1] [] []
  hrank0 : 0 < grid0.rank
  k0_mult1_dvd : ∀ i : grid0.Coords, ∀ (k0_h1 : k0_cond1 i = 1#1), 256 ∣ k0_mult1.toNat
  k0_off1_inb : ∀ i : grid0.Coords, ∀ (k0_h1 : k0_cond1 i = 1#1), ∀ (r : Fin 8), ∀ a, (k0_off1 (BitVec.ofNat 32 r.val)) a + S1x256x1024.size a ≤ S1x2048x1024.size a
  k0_off2_inb : ∀ i : grid0.Coords, ∀ (k0_h1 : k0_cond1 i = 1#1), ∀ (r : Fin 8), ∀ a, (k0_off2 (BitVec.ofNat 32 r.val)) a + S256x1024.size a ≤ S2048x1024.size a
  k0_off2_packedbf16 : ∀ i : grid0.Coords, ∀ (k0_h1 : k0_cond1 i = 1#1), ∀ (r : Fin 8), (Rect.unit (s := S2048x1024) (k0_off2 (BitVec.ofNat 32 r.val)) S256x1024.size (k0_off2_inb i k0_h1 r)).PackedRows (EltTy.packing .bf16)
  k0_mult2_dvd : ∀ i : grid0.Coords, ∀ (k0_h1 : k0_cond1 i = 1#1), 256 ∣ k0_mult2.toNat
  k0_mult3_dvd : ∀ i : grid0.Coords, ∀ (k0_h1 : k0_cond1 i = 1#1), 256 ∣ k0_mult3.toNat
  k0_mult4_dvd : ∀ i : grid0.Coords, ∀ (k0_h1 : k0_cond1 i = 1#1), 256 ∣ k0_mult4.toNat
  k0_mult5_dvd : ∀ i : grid0.Coords, ∀ (k0_h1 : k0_cond1 i = 1#1), 256 ∣ k0_mult5.toNat
  k0_mult6_dvd : ∀ i : grid0.Coords, ∀ (k0_h1 : k0_cond1 i = 1#1), 256 ∣ k0_mult6.toNat
  k0_mult7_dvd : ∀ i : grid0.Coords, ∀ (k0_h1 : k0_cond1 i = 1#1), 256 ∣ k0_mult7.toNat
  k0_mult8_dvd : ∀ i : grid0.Coords, ∀ (k0_h1 : k0_cond1 i = 1#1), 256 ∣ k0_mult8.toNat
  k0_mult9_dvd : ∀ i : grid0.Coords, 256 ∣ (k0_mult9 i).toNat
  k0_off3_inb : ∀ i : grid0.Coords, ∀ a, (k0_off3 i) a + S1x256x1024.size a ≤ S1x2048x1024.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S4x2048x1024.size a
  hwx0_0 : ∀ i : grid0.Coords, EltTy.bits .f32 = 32 ∨ (Rect.block (s := S4x2048x1024) S1x2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x1024.size a ≤ S4x2048x1024.size a
  hwx0_4 : ∀ i : grid0.Coords, EltTy.bits .f32 = 32 ∨ (Rect.block (s := S4x2048x1024) S1x256x1024.size (cc0_transform_4 i) (hinb0_4 i)).WholeWords (EltTy.packing .f32)

variable [Facts₀]

def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf
def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_arg0) S1x2048x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x256x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 23
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S4x2048x1024, .f32⟩
  | .hbm, ⟨5, _⟩ => ⟨S4x2048x1024, .f32⟩
  | .hbm, ⟨6, _⟩ => ⟨S4x2048x1024, .f32⟩
  | .hbm, ⟨7, _⟩ => ⟨S4x2048x2048, .f32⟩
  | .hbm, ⟨8, _⟩ => ⟨S_, .f32⟩
  | .hbm, ⟨9, _⟩ => ⟨S4x2048, .f32⟩
  | .hbm, ⟨10, _⟩ => ⟨S_, .f32⟩
  | .hbm, ⟨11, _⟩ => ⟨S4x2048, .f32⟩
  | .hbm, ⟨12, _⟩ => ⟨S4x2048, .f32⟩
  | .hbm, ⟨13, _⟩ => ⟨S4x2048x1, .f32⟩
  | .hbm, ⟨14, _⟩ => ⟨S4x2048x2048, .f32⟩
  | .hbm, ⟨15, _⟩ => ⟨S4x2048x2048, .f32⟩
  | .hbm, ⟨16, _⟩ => ⟨S4x2048x2048, .f32⟩
  | .hbm, ⟨17, _⟩ => ⟨S_, .f32⟩
  | .hbm, ⟨18, _⟩ => ⟨S4x2048, .f32⟩
  | .hbm, ⟨19, _⟩ => ⟨S4x2048x1, .f32⟩
  | .hbm, ⟨20, _⟩ => ⟨S4x2048x2048, .f32⟩
  | .hbm, ⟨21, _⟩ => ⟨S4x2048x2048, .f32⟩
  | .hbm, ⟨22, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_1_01_0_n_n_wf : DotDims.WF S4x2048x1024 S1024x1024 S4x2048x1024 [2] [1] [0, 1] [0] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.Spec.lean ====
/-
  Self-attention without the 1/sqrt(d) scale, as a function of the four argument arrays, index by index,
  on the extended reals: the three projections x·Wᵀ, the scores q·k, a row's maximum, the exponentials of the
  shifted scores, their sum, and the weighted average of the value rows. The average is written in the two
  orders the two programs compute it in: the weighted sum of the value rows divided by the row's sum of
  weights (`rowLate`), and the sum of the value rows each weighted by its normalised weight (`rowEarly`).
-/
import Idealize.ShloMosaic.PureOps.Ideal
import Idealize.ShloMosaic.Lib.ValueIdx

noncomputable section

namespace Cert.Attn

open Idealize.ShloMosaic Idealize.ShloMosaic.ValueIdx

/-- The activations: batch × sequence × hidden. -/
abbrev SX : Shape := ⟨3, ![4, 2048, 1024]⟩
/-- A weight matrix, stored [out, in]. -/
abbrev SW : Shape := ⟨2, ![1024, 1024]⟩
/-- One batch's keys or values: sequence × hidden. -/
abbrev SK : Shape := ⟨2, ![2048, 1024]⟩

/-! ## One query row against one batch's keys and values -/

/-- The score of a query row against key row `s`: their inner product. -/
def rowScore (qrow : Fin 1024 → EReal) (K : SK.Idx → EReal) (s : Fin 2048) : EReal :=
  ∑ e : Fin 1024, qrow e * K (ix2 s e)

/-- The largest score of the row (the fold of `max` from `-∞` over the key positions). -/
def rowMax (qrow : Fin 1024 → EReal) (K : SK.Idx → EReal) : EReal :=
  (Finset.univ : Finset (Fin 2048)).fold max ⊥ (rowScore qrow K)

/-- The unnormalised softmax weight of key position `s`: `exp (score − max)`. -/
def rowWeight (qrow : Fin 1024 → EReal) (K : SK.Idx → EReal) (s : Fin 2048) : EReal :=
  Ideal.exp (rowScore qrow K s - rowMax qrow K)

/-- The row's sum of weights. -/
def rowDenom (qrow : Fin 1024 → EReal) (K : SK.Idx → EReal) : EReal :=
  ∑ s : Fin 2048, rowWeight qrow K s

/-- Normalisation LAST: the weighted sum of the value rows, divided by the sum of the weights. -/
def rowLate (qrow : Fin 1024 → EReal) (K V : SK.Idx → EReal) (d : Fin 1024) : EReal :=
  Ideal.div (∑ s : Fin 2048, rowWeight qrow K s * V (ix2 s d)) (rowDenom qrow K)

/-- Normalisation FIRST: the sum of the value rows, each times its normalised weight. -/
def rowEarly (qrow : Fin 1024 → EReal) (K V : SK.Idx → EReal) (d : Fin 1024) : EReal :=
  ∑ s : Fin 2048, Ideal.div (rowWeight qrow K s) (rowDenom qrow K) * V (ix2 s d)

/-! ## The projections -/

/-- Row `(b, s)` of `x · Wᵀ`: entry `e` is the inner product of `x[b, s, :]` with `W[e, :]`. -/
def projRow (x : SX.Idx → EReal) (w : SW.Idx → EReal) (b : Fin 4) (s : Fin 2048) : Fin 1024 → EReal :=
  fun e => ∑ k : Fin 1024, x (ix3 b s k) * w (ix2 e k)

/-- Batch `b` of `x · Wᵀ` as a sequence × hidden matrix. -/
def projMat (x : SX.Idx → EReal) (w : SW.Idx → EReal) (b : Fin 4) : SK.Idx → EReal :=
  fun i => projRow x w b (i 0) (i 1)

/-! ## The whole result -/

/-- Attention with the normalisation last, at index `(b, q, d)`. -/
def attnLate (x : SX.Idx → EReal) (wq wk wv : SW.Idx → EReal) : SX.Idx → EReal :=
  fun i => rowLate (projRow x wq (i 0) (i 1)) (projMat x wk (i 0)) (projMat x wv (i 0)) (i 2)

/-- Attention with the normalisation first, at index `(b, q, d)`. -/
def attnEarly (x : SX.Idx → EReal) (wq wk wv : SW.Idx → EReal) : SX.Idx → EReal :=
  fun i => rowEarly (projRow x wq (i 0) (i 1)) (projMat x wk (i 0)) (projMat x wv (i 0)) (i 2)

end Cert.Attn

end
-- ==== Proof.Law.lean ====
/-
  The two orders of normalisation agree on finite inputs. With real queries, keys and values every score is
  a real number, so the row's maximum is a real number, every weight exp (score − max) is a positive real,
  and the row's sum of weights is a positive real L. Dividing by L is multiplying by the real 1 / L, and
  (∑ p_j v_j) · (1 / L) = ∑ (p_j · (1 / L)) · v_j in the reals. The projections are finite sums of products
  of reals, hence reals, which carries the row law to the whole result.
-/
import proofs.«428826_j42820823941612_3_alg».proof.Proof.Spec
import Mathlib.Data.EReal.Basic
import Mathlib.Data.EReal.Operations
import Mathlib.Data.Finset.Fold
import Mathlib.Algebra.Order.BigOperators.Group.Finset
import Mathlib.Algebra.BigOperators.Ring.Finset

noncomputable section

namespace Cert.Attn

open Idealize.ShloMosaic Idealize.ShloMosaic.ValueIdx

/-! ## Finite sums and maxima of reals inside the extended reals -/

/-- The coercion of the reals commutes with finite sums. -/
theorem coe_sum_real {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A finite sum of products of reals is a real. -/
theorem sum_mul_real {ι : Type*} [Fintype ι] (a b : ι → EReal)
    (ha : ∀ i, ∃ r : ℝ, a i = (r : EReal)) (hb : ∀ i, ∃ r : ℝ, b i = (r : EReal)) :
    ∃ r : ℝ, ∑ i, a i * b i = (r : EReal) := by
  choose f hf using ha
  choose g hg using hb
  refine ⟨∑ i, f i * g i, ?_⟩
  rw [← coe_sum_real]
  refine Finset.sum_congr rfl fun i _ => ?_
  rw [hf i, hg i, EReal.coe_mul]

/-- The fold of max from −∞ over a nonempty family of reals is a real: it is below +∞ because −∞ and
    every entry are, and above −∞ because some entry is. -/
theorem fold_max_real {ι : Type*} [Fintype ι] [Nonempty ι] (a : ι → EReal)
    (ha : ∀ i, ∃ r : ℝ, a i = (r : EReal)) :
    ∃ m : ℝ, (Finset.univ : Finset ι).fold max ⊥ a = (m : EReal) := by
  have htop : (Finset.univ : Finset ι).fold max ⊥ a ≠ ⊤ := by
    apply ne_of_lt
    rw [Finset.fold_max_lt]
    refine ⟨bot_lt_top, fun i _ => ?_⟩
    obtain ⟨r, hr⟩ := ha i
    rw [hr]; exact EReal.coe_lt_top r
  have hbot : (Finset.univ : Finset ι).fold max ⊥ a ≠ ⊥ := by
    apply ne_of_gt
    rw [Finset.lt_fold_max]
    obtain ⟨i⟩ := ‹Nonempty ι›
    obtain ⟨r, hr⟩ := ha i
    exact Or.inr ⟨i, Finset.mem_univ i, by rw [hr]; exact EReal.bot_lt_coe r⟩
  exact ⟨_, (EReal.coe_toReal htop hbot).symm⟩

/-! ## The law over an abstract finite index -/

/-- Normalising last and normalising first give the same average, for real scores, a real shift and
    real values over a nonempty finite index. -/
theorem late_eq_early {ι : Type*} [Fintype ι] [Nonempty ι] (sc v : ι → EReal) (M : EReal)
    (hsc : ∀ i, ∃ r : ℝ, sc i = (r : EReal)) (hv : ∀ i, ∃ r : ℝ, v i = (r : EReal))
    (hM : ∃ m : ℝ, M = (m : EReal)) :
    Ideal.div (∑ i, Ideal.exp (sc i - M) * v i) (∑ i, Ideal.exp (sc i - M)) =
      ∑ i, Ideal.div (Ideal.exp (sc i - M)) (∑ i, Ideal.exp (sc i - M)) * v i := by
  choose s hs using hsc
  choose w hw using hv
  obtain ⟨m, rfl⟩ := hM
  -- the weights and their sum, as reals
  have hp : ∀ i, Ideal.exp (sc i - (m : EReal)) = ((Real.exp (s i - m) : ℝ) : EReal) := fun i => by
    rw [hs i, ← EReal.coe_sub, Ideal.exp_coe]
  have hL : ∑ i, Ideal.exp (sc i - (m : EReal)) = ((∑ i, Real.exp (s i - m) : ℝ) : EReal) := by
    rw [← coe_sum_real]; exact Finset.sum_congr rfl fun i _ => hp i
  have hLpos : (0 : ℝ) < ∑ i, Real.exp (s i - m) :=
    Finset.sum_pos (fun i _ => Real.exp_pos _) Finset.univ_nonempty
  rw [hL, Ideal.div_coe hLpos.ne']
  have hnum : ∑ i, Ideal.exp (sc i - (m : EReal)) * v i
      = ((∑ i, Real.exp (s i - m) * w i : ℝ) : EReal) := by
    rw [← coe_sum_real]
    refine Finset.sum_congr rfl fun i _ => ?_
    rw [hp i, hw i, EReal.coe_mul]
  have hterm : ∀ i, Ideal.div (Ideal.exp (sc i - (m : EReal)))
        ((∑ i, Real.exp (s i - m) : ℝ) : EReal) * v i
      = ((Real.exp (s i - m) * (1 / ∑ j, Real.exp (s j - m)) * w i : ℝ) : EReal) := fun i => by
    rw [Ideal.div_coe hLpos.ne', hp i, hw i, EReal.coe_mul, EReal.coe_mul]
  rw [hnum, Finset.sum_congr rfl fun i _ => hterm i, coe_sum_real, ← EReal.coe_mul, Finset.sum_mul]
  congr 1
  refine Finset.sum_congr rfl fun i _ => ?_
  ring

/-! ## One query row -/

/-- Every score of a real query row against real keys is a real. -/
theorem rowScore_real (qrow : Fin 1024 → EReal) (K : SK.Idx → EReal)
    (hq : ∀ e, ∃ r : ℝ, qrow e = (r : EReal)) (hK : ∀ i, ∃ r : ℝ, K i = (r : EReal)) (s : Fin 2048) :
    ∃ r : ℝ, rowScore qrow K s = (r : EReal) :=
  sum_mul_real qrow (fun e => K (ix2 s e)) hq (fun e => hK _)

/-- The row's maximum is a real. -/
theorem rowMax_real (qrow : Fin 1024 → EReal) (K : SK.Idx → EReal)
    (hq : ∀ e, ∃ r : ℝ, qrow e = (r : EReal)) (hK : ∀ i, ∃ r : ℝ, K i = (r : EReal)) :
    ∃ m : ℝ, rowMax qrow K = (m : EReal) :=
  fold_max_real (rowScore qrow K) (rowScore_real qrow K hq hK)

theorem rowLate_eq_rowEarly (qrow : Fin 1024 → EReal) (K V : SK.Idx → EReal)
    (hq : ∀ e, ∃ r : ℝ, qrow e = (r : EReal)) (hK : ∀ i, ∃ r : ℝ, K i = (r : EReal))
    (hV : ∀ i, ∃ r : ℝ, V i = (r : EReal)) (d : Fin 1024) :
    rowLate qrow K V d = rowEarly qrow K V d :=
  late_eq_early (rowScore qrow K) (fun s => V (ix2 s d)) (rowMax qrow K)
    (rowScore_real qrow K hq hK) (fun s => hV _) (rowMax_real qrow K hq hK)

/-! ## The projections and the whole result -/

theorem projRow_real (x : SX.Idx → EReal) (w : SW.Idx → EReal) (hx : ∀ i, ∃ r : ℝ, x i = (r : EReal))
    (hw : ∀ i, ∃ r : ℝ, w i = (r : EReal)) (b : Fin 4) (s : Fin 2048) (e : Fin 1024) :
    ∃ r : ℝ, projRow x w b s e = (r : EReal) :=
  sum_mul_real (fun k => x (ix3 b s k)) (fun k => w (ix2 e k)) (fun k => hx _) (fun k => hw _)

theorem attnLate_eq_attnEarly (x : SX.Idx → EReal) (wq wk wv : SW.Idx → EReal)
    (hx : ∀ i, ∃ r : ℝ, x i = (r : EReal)) (hwq : ∀ i, ∃ r : ℝ, wq i = (r : EReal))
    (hwk : ∀ i, ∃ r : ℝ, wk i = (r : EReal)) (hwv : ∀ i, ∃ r : ℝ, wv i = (r : EReal)) :
    attnLate x wq wk wv = attnEarly x wq wk wv := by
  funext i
  exact rowLate_eq_rowEarly (projRow x wq (i 0) (i 1)) (projMat x wk (i 0)) (projMat x wv (i 0))
    (fun e => projRow_real x wq hx hwq (i 0) (i 1) e)
    (fun j => projRow_real x wk hx hwk (i 0) (j 0) (j 1))
    (fun j => projRow_real x wv hx hwv (i 0) (j 0) (j 1)) (i 2)

end Cert.Attn

end
-- ==== Proof.RefSpec.lean ====
/-
  The reference program read as the specification: stage by stage, each value the reference computes, at an index
  given by its coordinates, is the corresponding quantity of the specification (the projections, the scores, the
  row maximum, the softmax weights, their sum, the normalised weights), and so its result is `attnEarly`.
-/
import proofs.«428826_j42820823941612_3_alg».proof.Proof.Spec
import proofs.«428826_j42820823941612_3_alg».proof.Proof.Gen.ReferenceIdeal.Read
import Idealize.ShloMosaic.Lib.ValueIdx
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read Cert.Attn
open Idealize.ShloMosaic Idealize.ShloMosaic.ValueIdx

/-- The activations' type. -/
abbrev TX : Type := (⟨S4x2048x1024, .f32⟩ : BufTy).Contents (Elt Ideal)
/-- A weight matrix's type. -/
abbrev TW : Type := (⟨S1024x1024, .f32⟩ : BufTy).Contents (Elt Ideal)

/-! ## The projections -/

/-- Entry `(b, s, e)` of the first product `x · Wᵀ` is entry `e` of the specification's projected row `(b, s)`:
    the sum over `k` of `x[b, s, k] · W[e, k]`. -/
theorem proj0_at (x0 : TX) (w : TW) (b : Fin 4) (s : Fin 2048) (e : Fin 1024) :
    val_main_v0 (F := Ideal) x0 w (ix3 b s e) = projRow x0 w b s e := by
  rw [val_main_v0_apply]
  refine Finset.sum_congr rfl fun k _ => ?_
  have hl : lidx_main_v0 (ix3 b s e) k = ix3 b s k :=
    funext fun a => Fin.ext (by match a with | ⟨0, _⟩ => rfl | ⟨1, _⟩ => rfl | ⟨2, _⟩ => rfl)
  have hr : ridx_main_v0 (ix3 b s e) k = ix2 e k :=
    funext fun a => Fin.ext (by match a with | ⟨0, _⟩ => rfl | ⟨1, _⟩ => rfl)
  rw [hl, hr]

/-- The same for the second product (the keys). -/
theorem proj1_at (x0 : TX) (w : TW) (b : Fin 4) (s : Fin 2048) (e : Fin 1024) :
    val_main_v1 (F := Ideal) x0 w (ix3 b s e) = projRow x0 w b s e := by
  rw [val_main_v1_apply]
  refine Finset.sum_congr rfl fun k _ => ?_
  have hl : lidx_main_v1 (ix3 b s e) k = ix3 b s k :=
    funext fun a => Fin.ext (by match a with | ⟨0, _⟩ => rfl | ⟨1, _⟩ => rfl | ⟨2, _⟩ => rfl)
  have hr : ridx_main_v1 (ix3 b s e) k = ix2 e k :=
    funext fun a => Fin.ext (by match a with | ⟨0, _⟩ => rfl | ⟨1, _⟩ => rfl)
  rw [hl, hr]

/-- The same for the third product (the values). -/
theorem proj2_at (x0 : TX) (w : TW) (b : Fin 4) (s : Fin 2048) (e : Fin 1024) :
    val_main_v2 (F := Ideal) x0 w (ix3 b s e) = projRow x0 w b s e := by
  rw [val_main_v2_apply]
  refine Finset.sum_congr rfl fun k _ => ?_
  have hl : lidx_main_v2 (ix3 b s e) k = ix3 b s k :=
    funext fun a => Fin.ext (by match a with | ⟨0, _⟩ => rfl | ⟨1, _⟩ => rfl | ⟨2, _⟩ => rfl)
  have hr : ridx_main_v2 (ix3 b s e) k = ix2 e k :=
    funext fun a => Fin.ext (by match a with | ⟨0, _⟩ => rfl | ⟨1, _⟩ => rfl)
  rw [hl, hr]

/-! ## The scores -/

/-- The score at `(b, q, s)`: the inner product of the projected query row `(b, q)` with the projected key row
    `(b, s)`. -/
theorem score_at (x0 : TX) (x1 x2 : TW) (b : Fin 4) (q s : Fin 2048) :
    val_main_v3 (F := Ideal) x0 x1 x2 (ix3 b q s) = rowScore (projRow x0 x1 b q) (projMat x0 x2 b) s := by
  rw [val_main_v3_apply]
  refine Finset.sum_congr rfl fun e _ => ?_
  have hl : lidx_main_v3 (ix3 b q s) e = ix3 b q e :=
    funext fun a => Fin.ext (by match a with | ⟨0, _⟩ => rfl | ⟨1, _⟩ => rfl | ⟨2, _⟩ => rfl)
  have hr : ridx_main_v3 (ix3 b q s) e = ix3 b s e :=
    funext fun a => Fin.ext (by match a with | ⟨0, _⟩ => rfl | ⟨1, _⟩ => rfl | ⟨2, _⟩ => rfl)
  rw [hl, hr, proj0_at, proj1_at]
  rfl

/-! ## The row maximum -/

/-- The word of `-∞` denotes the least extended real. -/
theorem ofBits_neg_inf : Ideal.ofBits .f32 0xFF800000#32 = (⊥ : EReal) := by
  simp [Ideal.ofBits, Ideal.ieee]

/-- The shape fact that names the index a reduction over the key axis reads: `[4, 2048, 2048]` without its last
    axis is `[4, 2048]`. -/
theorem reduces_keys : S4x2048x2048.Reduces [2] S4x2048 := by decide

/-- Putting the key position `s` back into `(b, q)` gives `(b, q, s)`. -/
theorem lift_at (b : Fin 4) (q s : Fin 2048) : reduces_keys.lift (ix2 b q) s = ix3 b q s :=
  funext fun a => Fin.ext (by match a with | ⟨0, _⟩ => rfl | ⟨1, _⟩ => rfl | ⟨2, _⟩ => rfl)

/-- The reduction over the key axis with the body `max`, from `-∞`, is at `(b, q)` the fold of `max` from `⊥` over
    the key positions of the scores of row `(b, q)`: the specification's row maximum. -/
theorem reduceMax_at (x0 : TX) (x1 x2 : TW) (b : Fin 4) (q : Fin 2048) :
    val_main_v4 (F := Ideal) x0 x1 x2 (ix2 b q) = rowMax (projRow x0 x1 b q) (projMat x0 x2 b) := by
  unfold val_main_v4
  rw [Host.reduce_eq_fold_single FloatOps.maximumf _ _ reducesTo_S4x2048x2048_S4x2048_d2 reduces_keys h_S_ (ix2 b q),
    val_main_cst_apply, Ideal.ofBits_def, ofBits_neg_inf]
  unfold rowMax
  refine Finset.fold_congr fun s _ => ?_
  exact (congrArg (val_main_v3 (F := Ideal) x0 x1 x2) (lift_at b q s)).trans (score_at x0 x1 x2 b q s)

/-- Taking the maximum with the broadcast `-∞` once more changes nothing. -/
theorem max_at (x0 : TX) (x1 x2 : TW) (b : Fin 4) (q : Fin 2048) :
    val_main_v6 (F := Ideal) x0 x1 x2 (ix2 b q) = rowMax (projRow x0 x1 b q) (projMat x0 x2 b) := by
  rw [val_main_v6_apply, val_main_v5_apply, val_main_cst_0_apply, reduceMax_at, Ideal.ofBits_def, ofBits_neg_inf]
  exact max_bot_left _

/-! ## The weights, their sum, the normalised weights -/

/-- The exponential of the shifted score at `(b, q, s)` is the specification's weight of key position `s`. -/
theorem weight_at (x0 : TX) (x1 x2 : TW) (b : Fin 4) (q s : Fin 2048) :
    val_main_v10 (F := Ideal) x0 x1 x2 (ix3 b q s) = rowWeight (projRow x0 x1 b q) (projMat x0 x2 b) s := by
  have hi : idx_main_v7 (idx_main_v8 (ix3 b q s)) = ix2 b q :=
    funext fun a => Fin.ext (by match a with | ⟨0, _⟩ => rfl | ⟨1, _⟩ => rfl)
  rw [val_main_v10_apply, val_main_v9_apply, val_main_v8_apply, val_main_v7_apply, hi, max_at, score_at]
  rfl

/-- The sum of the weights over the key axis, from `0`, is the specification's denominator. -/
theorem denom_at (x0 : TX) (x1 x2 : TW) (b : Fin 4) (q : Fin 2048) :
    val_main_v11 (F := Ideal) x0 x1 x2 (ix2 b q) = rowDenom (projRow x0 x1 b q) (projMat x0 x2 b) := by
  rw [val_main_v11_apply, val_main_cst_1_apply, Ideal.ofBits_def, Ideal.ofBits_zero_f32, zero_add]
  refine Finset.sum_congr rfl fun s _ => ?_
  have hi : idx_main_v11 (ix2 b q) s = ix3 b q s :=
    funext fun a => Fin.ext (by match a with | ⟨0, _⟩ => rfl | ⟨1, _⟩ => rfl | ⟨2, _⟩ => rfl)
  rw [hi, weight_at]

/-- The quotient at `(b, q, s)`: the weight of key position `s` divided by the row's sum of weights. -/
theorem quot_at (x0 : TX) (x1 x2 : TW) (b : Fin 4) (q s : Fin 2048) :
    val_main_v14 (F := Ideal) x0 x1 x2 (ix3 b q s)
      = Ideal.div (rowWeight (projRow x0 x1 b q) (projMat x0 x2 b) s) (rowDenom (projRow x0 x1 b q) (projMat x0 x2 b)) := by
  have hi : idx_main_v12 (idx_main_v13 (ix3 b q s)) = ix2 b q :=
    funext fun a => Fin.ext (by match a with | ⟨0, _⟩ => rfl | ⟨1, _⟩ => rfl)
  rw [val_main_v14_apply, val_main_v13_apply, val_main_v12_apply, hi, denom_at, weight_at]
  rfl

/-! ## The result -/

/-- The reference's result is the specification's attention with the normalisation first. -/
theorem result_eq (x0 : (⟨Cert.ReferenceIdeal.S4x2048x1024, .f32⟩ : BufTy).Contents (Elt Ideal))
    (x1 x2 x3 : (⟨Cert.ReferenceIdeal.S1024x1024, .f32⟩ : BufTy).Contents (Elt Ideal)) :
    Cert.ReferenceIdeal.Read.val_main_v15 (F := Ideal) x0 x1 x2 x3 = Cert.Attn.attnEarly x0 x1 x2 x3 := by
  funext i
  obtain ⟨b, q, d, rfl⟩ : ∃ b q d, i = ix3 b q d := ⟨i 0, i 1, i 2, eq_ix3 i⟩
  rw [val_main_v15_apply]
  show _ = rowEarly (projRow x0 x1 b q) (projMat x0 x2 b) (projMat x0 x3 b) d
  unfold rowEarly
  refine Finset.sum_congr rfl fun s _ => ?_
  have hl : lidx_main_v15 (ix3 b q d) s = ix3 b q s :=
    funext fun a => Fin.ext (by match a with | ⟨0, _⟩ => rfl | ⟨1, _⟩ => rfl | ⟨2, _⟩ => rfl)
  have hr : ridx_main_v15 (ix3 b q d) s = ix3 b s d :=
    funext fun a => Fin.ext (by match a with | ⟨0, _⟩ => rfl | ⟨1, _⟩ => rfl | ⟨2, _⟩ => rfl)
  rw [hl, hr, quot_at, proj2_at]
  rfl

end Cert.ReferenceIdeal.RefValue

end
-- ==== Proof.Finite.lean ====
/-
  Every float input is finite, read back. The precondition computes one bit: for each of the four inputs, |x| < +∞
  compared elementwise and reduced by "and" over all axes, the four bits joined by "and". Where that bit is 1, each
  conjunct is 1; a reduction by "and" over all axes that is 1 had a 1 at every index; and at the ideal instance
  |x| = max x (−x) below +∞ = ⊤ excludes x = ⊤ (|x| = ⊤) and x = ⊥ (−x = ⊤), so x is a real.
-/
import proofs.«428826_j42820823941612_3_alg».proof.Pre_finite_inputs
import Idealize.ShloMosaic.Lib.ReduceAll
import Idealize.ShloMosaic.PureOps.Ideal.Laws
import Idealize.ShloMosaic.Lib.ValueIdx

noncomputable section

namespace Cert.Pre_finite_inputs.Finite

open Idealize.ShloMosaic

/-- The pattern 0x7F800000 (sign 0, exponent all ones, fraction 0) denotes +∞. -/
theorem inf_bits : Ideal.ofBits .f32 0x7F800000#32 = (⊤ : EReal) := by
  simp [Ideal.ofBits, Ideal.ieee]

/-- An extended real whose absolute value max x (−x) is strictly below ⊤ is a real. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- The scalar shape has one index. -/
instance : Subsingleton S_.Idx := ⟨fun a b => funext fun d => d.elim0⟩

/-- One conjunct, "every |a i| < +∞": where the reduction by "and" over all axes of the elementwise comparison of |a| with a
    vector that is +∞ everywhere is 1, every entry of a is a real. -/
theorem real_of_all {s u : Shape} {axes : List (Fin s.rank)} (a b : FVec Ideal s .f32)
    (hb : ∀ i, b i = (⊤ : EReal)) (init : IVec u 1) (hr : s.ReducesTo axes S_) (hu : 0 < u.numel) (j : S_.Idx)
    (e : Host.reduce IntOp.andi (cmpf .olt (Host.absf a) b) init hr hu j = 1#1) (i : s.Idx) :
    ∃ r : ℝ, a i = (r : EReal) := by
  have hi := Host.reduce_andi_all _ init hr hu j e i
  have hlt : max (a i) (-(a i)) < (⊤ : EReal) := by
    have : Ideal.cmp .olt (max (a i) (-(a i))) (b i) = 1#1 := hi
    rw [hb i] at this
    unfold Ideal.cmp at this
    by_contra hn
    simp [hn] at this
  exact real_of_abs_lt_top _ hlt

theorem real_of_pre [Cert.Pre_finite_inputs.Facts] (a0 : FVec Ideal Cert.Pre_finite_inputs.S4x2048x1024 .f32)
    (a1 a2 a3 : FVec Ideal Cert.Pre_finite_inputs.S1024x1024 .f32)
    (h : Cert.Pre_finite_inputs.fn (F := Ideal) a0 a1 a2 a3 = fun _ => 1#1) :
    (∀ i, ∃ r : ℝ, a0 i = (r : EReal)) ∧ (∀ i, ∃ r : ℝ, a1 i = (r : EReal))
      ∧ (∀ i, ∃ r : ℝ, a2 i = (r : EReal)) ∧ (∀ i, ∃ r : ℝ, a3 i = (r : EReal)) := by
  have e := congrFun h ValueIdx.ix0
  dsimp only [Cert.Pre_finite_inputs.fn, Cert.Pre_finite_inputs.fn_part1] at e
  obtain ⟨e012, e3⟩ := IntOp.andi_eq_one.1 e
  obtain ⟨e01, e2⟩ := IntOp.andi_eq_one.1 e012
  obtain ⟨e0, e1⟩ := IntOp.andi_eq_one.1 e01
  exact ⟨real_of_all a0 _ (fun _ => inf_bits) _ _ _ _ e0, real_of_all a1 _ (fun _ => inf_bits) _ _ _ _ e1,
    real_of_all a2 _ (fun _ => inf_bits) _ _ _ _ e2, real_of_all a3 _ (fun _ => inf_bits) _ _ _ _ e3⟩

end Cert.Pre_finite_inputs.Finite

end
-- ==== Proof.Payload.lean ====
/-
  The kernel's two payloads read at an entry, on the extended reals. A stored chunk of keys or values is the
  chunk's rows against the weight's rows: entry (r, e) is the inner product of row r of the chunk with row e
  of the weight. The attention payload at (0, r, d) is, for the projected query row r, the weighted sum of the
  value rows' entry d, with weights the exponentials of the scores less the row's maximum, divided by the sum
  of those weights: the late-normalised row of the specification. Narrowing and widening of the float format
  are the identity on extended reals, a cast to the same shape is the identity, and a leading unit axis only
  renames the index.
-/
import proofs.«428826_j42820823941612_3_alg».proof.Proof.Gen.KernelIdeal.Skeleton
import proofs.«428826_j42820823941612_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx Idealize.ShloMosaic.TcCoe Idealize.SL.Sem

namespace Cert.KernelIdeal.PayloadValue

open Cert.KernelIdeal Cert.KernelIdeal.Gen

/-! ## The three products, read at an entry

Each matrix product into a zero accumulator is, at an output entry, the sum over the one contracted axis of the
products of the operands' entries. The operand indices at an output index and a contraction index are read
coordinate by coordinate: a kept axis reads the output index, the contracted axis reads the contraction index. -/

/-! ### Rows of a [256,1024] matrix against rows of a [1024,1024] matrix -/

theorem lhs_proj_0 (i : S256x1024.Idx) (q : dot_S256x1024_S1024x1024_S256x1024_1_1_0_0_n_n.contr.Idx) :
    (dot_S256x1024_S1024x1024_S256x1024_1_1_0_0_n_n.lhsIdx i q 0).val = (i 0).val := by
  unfold DotDims.lhsIdx
  rw [dif_neg (show ¬(0 : Fin S256x1024.rank) ∈ dot_S256x1024_S1024x1024_S256x1024_1_1_0_0_n_n.lhsBatch by decide), dif_pos (show (0 : Fin S256x1024.rank) ∈ dot_S256x1024_S1024x1024_S256x1024_1_1_0_0_n_n.lhsNonContracting by decide)]
  rfl
theorem lhs_proj_1 (i : S256x1024.Idx) (q : dot_S256x1024_S1024x1024_S256x1024_1_1_0_0_n_n.contr.Idx) :
    (dot_S256x1024_S1024x1024_S256x1024_1_1_0_0_n_n.lhsIdx i q 1).val = (q ⟨0, by decide⟩).val :=
  dot_S256x1024_S1024x1024_S256x1024_1_1_0_0_n_n.lhsIdx_val_of_single rfl i q
theorem rhs_proj_0 (i : S256x1024.Idx) (q : dot_S256x1024_S1024x1024_S256x1024_1_1_0_0_n_n.contr.Idx) :
    (dot_S256x1024_S1024x1024_S256x1024_1_1_0_0_n_n.rhsIdx i q 0).val = (i 1).val := by
  unfold DotDims.rhsIdx
  rw [dif_neg (show ¬(0 : Fin S1024x1024.rank) ∈ dot_S256x1024_S1024x1024_S256x1024_1_1_0_0_n_n.rhsBatch by decide), dif_pos (show (0 : Fin S1024x1024.rank) ∈ dot_S256x1024_S1024x1024_S256x1024_1_1_0_0_n_n.rhsNonContracting by decide)]
  rfl
theorem rhs_proj_1 (i : S256x1024.Idx) (q : dot_S256x1024_S1024x1024_S256x1024_1_1_0_0_n_n.contr.Idx) :
    (dot_S256x1024_S1024x1024_S256x1024_1_1_0_0_n_n.rhsIdx i q 1).val = (q ⟨0, by decide⟩).val :=
  dot_S256x1024_S1024x1024_S256x1024_1_1_0_0_n_n.rhsIdx_val_of_single rfl i q

/-- Entry `(r, e)` of `x · wᵀ`: the inner product of row `r` of `x` with row `e` of `w`. -/
theorem matmul_proj_apply (x : FVec Ideal S256x1024 .bf16) (w : FVec Ideal S1024x1024 .bf16) (r : Fin 256) (e : Fin 1024) :
    matmul dot_S256x1024_S1024x1024_S256x1024_1_1_0_0_n_n none x w (constant (F := Ideal) S256x1024 .f32 0x00000000#32) (ix2 r e)
      = ∑ k : Fin 1024, x (ix2 r k) * w (ix2 e k) := by
  simp only [matmul]
  rw [Ideal.matmul_constant_zero_apply, ← Equiv.sum_comp (ValueIdx.contrEquiv1 dot_S256x1024_S1024x1024_S256x1024_1_1_0_0_n_n 1024 rfl rfl).symm]
  refine Finset.sum_congr rfl fun k _ => ?_
  have hk := ValueIdx.contrEquiv1_symm_val dot_S256x1024_S1024x1024_S256x1024_1_1_0_0_n_n 1024 rfl rfl k
  have el : dot_S256x1024_S1024x1024_S256x1024_1_1_0_0_n_n.lhsIdx (ix2 r e) ((ValueIdx.contrEquiv1 dot_S256x1024_S1024x1024_S256x1024_1_1_0_0_n_n 1024 rfl rfl).symm k) = ix2 r k := funext fun a => Fin.ext (by
    match a with
    | ⟨0, _⟩ => exact lhs_proj_0 _ _
    | ⟨1, _⟩ => exact (lhs_proj_1 _ _).trans hk)
  have er : dot_S256x1024_S1024x1024_S256x1024_1_1_0_0_n_n.rhsIdx (ix2 r e) ((ValueIdx.contrEquiv1 dot_S256x1024_S1024x1024_S256x1024_1_1_0_0_n_n 1024 rfl rfl).symm k) = ix2 e k := funext fun a => Fin.ext (by
    match a with
    | ⟨0, _⟩ => exact rhs_proj_0 _ _
    | ⟨1, _⟩ => exact (rhs_proj_1 _ _).trans hk)
  rw [el, er]

/-! ### Rows of a [256,1024] matrix against rows of a [2048,1024] matrix -/

theorem lhs_score_0 (i : S256x2048.Idx) (q : dot_S256x1024_S2048x1024_S256x2048_1_1_0_0_n_n.contr.Idx) :
    (dot_S256x1024_S2048x1024_S256x2048_1_1_0_0_n_n.lhsIdx i q 0).val = (i 0).val := by
  unfold DotDims.lhsIdx
  rw [dif_neg (show ¬(0 : Fin S256x1024.rank) ∈ dot_S256x1024_S2048x1024_S256x2048_1_1_0_0_n_n.lhsBatch by decide), dif_pos (show (0 : Fin S256x1024.rank) ∈ dot_S256x1024_S2048x1024_S256x2048_1_1_0_0_n_n.lhsNonContracting by decide)]
  rfl
theorem lhs_score_1 (i : S256x2048.Idx) (q : dot_S256x1024_S2048x1024_S256x2048_1_1_0_0_n_n.contr.Idx) :
    (dot_S256x1024_S2048x1024_S256x2048_1_1_0_0_n_n.lhsIdx i q 1).val = (q ⟨0, by decide⟩).val :=
  dot_S256x1024_S2048x1024_S256x2048_1_1_0_0_n_n.lhsIdx_val_of_single rfl i q
theorem rhs_score_0 (i : S256x2048.Idx) (q : dot_S256x1024_S2048x1024_S256x2048_1_1_0_0_n_n.contr.Idx) :
    (dot_S256x1024_S2048x1024_S256x2048_1_1_0_0_n_n.rhsIdx i q 0).val = (i 1).val := by
  unfold DotDims.rhsIdx
  rw [dif_neg (show ¬(0 : Fin S2048x1024.rank) ∈ dot_S256x1024_S2048x1024_S256x2048_1_1_0_0_n_n.rhsBatch by decide), dif_pos (show (0 : Fin S2048x1024.rank) ∈ dot_S256x1024_S2048x1024_S256x2048_1_1_0_0_n_n.rhsNonContracting by decide)]
  rfl
theorem rhs_score_1 (i : S256x2048.Idx) (q : dot_S256x1024_S2048x1024_S256x2048_1_1_0_0_n_n.contr.Idx) :
    (dot_S256x1024_S2048x1024_S256x2048_1_1_0_0_n_n.rhsIdx i q 1).val = (q ⟨0, by decide⟩).val :=
  dot_S256x1024_S2048x1024_S256x2048_1_1_0_0_n_n.rhsIdx_val_of_single rfl i q

/-- Entry `(r, j)` of `q · kᵀ`: the inner product of row `r` of `q` with row `j` of `k`. -/
theorem matmul_score_apply (x : FVec Ideal S256x1024 .bf16) (w : FVec Ideal S2048x1024 .bf16) (r : Fin 256) (j : Fin 2048) :
    matmul dot_S256x1024_S2048x1024_S256x2048_1_1_0_0_n_n none x w (constant (F := Ideal) S256x2048 .f32 0x00000000#32) (ix2 r j)
      = ∑ e : Fin 1024, x (ix2 r e) * w (ix2 j e) := by
  simp only [matmul]
  rw [Ideal.matmul_constant_zero_apply, ← Equiv.sum_comp (ValueIdx.contrEquiv1 dot_S256x1024_S2048x1024_S256x2048_1_1_0_0_n_n 1024 rfl rfl).symm]
  refine Finset.sum_congr rfl fun k _ => ?_
  have hk := ValueIdx.contrEquiv1_symm_val dot_S256x1024_S2048x1024_S256x2048_1_1_0_0_n_n 1024 rfl rfl k
  have el : dot_S256x1024_S2048x1024_S256x2048_1_1_0_0_n_n.lhsIdx (ix2 r j) ((ValueIdx.contrEquiv1 dot_S256x1024_S2048x1024_S256x2048_1_1_0_0_n_n 1024 rfl rfl).symm k) = ix2 r k := funext fun a => Fin.ext (by
    match a with
    | ⟨0, _⟩ => exact lhs_score_0 _ _
    | ⟨1, _⟩ => exact (lhs_score_1 _ _).trans hk)
  have er : dot_S256x1024_S2048x1024_S256x2048_1_1_0_0_n_n.rhsIdx (ix2 r j) ((ValueIdx.contrEquiv1 dot_S256x1024_S2048x1024_S256x2048_1_1_0_0_n_n 1024 rfl rfl).symm k) = ix2 j k := funext fun a => Fin.ext (by
    match a with
    | ⟨0, _⟩ => exact rhs_score_0 _ _
    | ⟨1, _⟩ => exact (rhs_score_1 _ _).trans hk)
  rw [el, er]

/-! ### Rows of a [256,2048] matrix against columns of a [2048,1024] matrix -/

theorem lhs_mix_0 (i : S256x1024.Idx) (q : dot_S256x2048_S2048x1024_S256x1024_1_0_0_1_n_n.contr.Idx) :
    (dot_S256x2048_S2048x1024_S256x1024_1_0_0_1_n_n.lhsIdx i q 0).val = (i 0).val := by
  unfold DotDims.lhsIdx
  rw [dif_neg (show ¬(0 : Fin S256x2048.rank) ∈ dot_S256x2048_S2048x1024_S256x1024_1_0_0_1_n_n.lhsBatch by decide), dif_pos (show (0 : Fin S256x2048.rank) ∈ dot_S256x2048_S2048x1024_S256x1024_1_0_0_1_n_n.lhsNonContracting by decide)]
  rfl
theorem lhs_mix_1 (i : S256x1024.Idx) (q : dot_S256x2048_S2048x1024_S256x1024_1_0_0_1_n_n.contr.Idx) :
    (dot_S256x2048_S2048x1024_S256x1024_1_0_0_1_n_n.lhsIdx i q 1).val = (q ⟨0, by decide⟩).val :=
  dot_S256x2048_S2048x1024_S256x1024_1_0_0_1_n_n.lhsIdx_val_of_single rfl i q
theorem rhs_mix_0 (i : S256x1024.Idx) (q : dot_S256x2048_S2048x1024_S256x1024_1_0_0_1_n_n.contr.Idx) :
    (dot_S256x2048_S2048x1024_S256x1024_1_0_0_1_n_n.rhsIdx i q 0).val = (q ⟨0, by decide⟩).val :=
  dot_S256x2048_S2048x1024_S256x1024_1_0_0_1_n_n.rhsIdx_val_of_single rfl i q
theorem rhs_mix_1 (i : S256x1024.Idx) (q : dot_S256x2048_S2048x1024_S256x1024_1_0_0_1_n_n.contr.Idx) :
    (dot_S256x2048_S2048x1024_S256x1024_1_0_0_1_n_n.rhsIdx i q 1).val = (i 1).val := by
  unfold DotDims.rhsIdx
  rw [dif_neg (show ¬(1 : Fin S2048x1024.rank) ∈ dot_S256x2048_S2048x1024_S256x1024_1_0_0_1_n_n.rhsBatch by decide), dif_pos (show (1 : Fin S2048x1024.rank) ∈ dot_S256x2048_S2048x1024_S256x1024_1_0_0_1_n_n.rhsNonContracting by decide)]
  rfl

/-- Entry `(r, d)` of `p · v`: row `r` of `p` against column `d` of `v`. -/
theorem matmul_mix_apply (p : FVec Ideal S256x2048 .bf16) (v : FVec Ideal S2048x1024 .bf16) (r : Fin 256) (d : Fin 1024) :
    matmul dot_S256x2048_S2048x1024_S256x1024_1_0_0_1_n_n none p v (constant (F := Ideal) S256x1024 .f32 0x00000000#32) (ix2 r d)
      = ∑ j : Fin 2048, p (ix2 r j) * v (ix2 j d) := by
  simp only [matmul]
  rw [Ideal.matmul_constant_zero_apply, ← Equiv.sum_comp (ValueIdx.contrEquiv1 dot_S256x2048_S2048x1024_S256x1024_1_0_0_1_n_n 2048 rfl rfl).symm]
  refine Finset.sum_congr rfl fun k _ => ?_
  have hk := ValueIdx.contrEquiv1_symm_val dot_S256x2048_S2048x1024_S256x1024_1_0_0_1_n_n 2048 rfl rfl k
  have el : dot_S256x2048_S2048x1024_S256x1024_1_0_0_1_n_n.lhsIdx (ix2 r d) ((ValueIdx.contrEquiv1 dot_S256x2048_S2048x1024_S256x1024_1_0_0_1_n_n 2048 rfl rfl).symm k) = ix2 r k := funext fun a => Fin.ext (by
    match a with
    | ⟨0, _⟩ => exact lhs_mix_0 _ _
    | ⟨1, _⟩ => exact (lhs_mix_1 _ _).trans hk)
  have er : dot_S256x2048_S2048x1024_S256x1024_1_0_0_1_n_n.rhsIdx (ix2 r d) ((ValueIdx.contrEquiv1 dot_S256x2048_S2048x1024_S256x1024_1_0_0_1_n_n 2048 rfl rfl).symm k) = ix2 k d := funext fun a => Fin.ext (by
    match a with
    | ⟨0, _⟩ => exact (rhs_mix_0 _ _).trans hk
    | ⟨1, _⟩ => exact rhs_mix_1 _ _)
  rw [el, er]

/-! ## Column forms of a kept axis

A reduction over the lanes leaves one value per row; the kernel keeps it as a one-column matrix and spreads it
back over the lanes. Read at an entry, the one-column matrix is the row's value and the spread matrix is the
row's value at every lane. -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A per-row value kept as a column and spread over `b` lanes reads, at `(p, c)`, the row's value. -/
theorem keepdims_apply {α : Type} {a b : ℕ} (x : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ x hc) hb (ix2 p c) = x (ix1 p) :=
  (broadcastTo_a1_ab_apply _ hb p c).trans (shapeCast_a_a1_apply x hc p 0)

/-! ## The two lane reductions -/

/-- The index of row `r` with lane `k` put back on the reduced axis is `(r, k)`. -/
theorem lift_row (h : S256x2048.Reduces [1] S256) (r : Fin 256) (k : Fin 2048) : h.lift (ix1 r) k = ix2 r k :=
  funext fun c => Fin.ext (by
    match c with
    | ⟨0, _⟩ => rfl
    | ⟨1, _⟩ => rfl)

/-- The pattern the maximum starts from is `-∞`. -/
theorem ofBits_negInf_f32 : Ideal.ofBits .f32 0xFF800000#32 = ⊥ := by simp [Ideal.ofBits, Ideal.ieee]

/-- The lane maximum of row `r`: the fold of `max` from `-∞` over the row's entries. -/
theorem rowmax_apply (s : FVec Ideal S256x2048 .f32) (h : S256x2048.Reduces [1] S256) (hφ : FKind.Formats .f32)
    (hacc : (0xFF800000#32 : BitVec 32) = 0xFF800000#32) (r : Fin 256) :
    multiReduction (F := Ideal) .maximumf [1] S256 s 0xFF800000#32 h hφ hacc (ix1 r)
      = (Finset.univ : Finset (Fin 2048)).fold max ⊥ (fun j => s (ix2 r j)) := by
  refine (Ideal.multiReduction_maximumf_single s 0xFF800000#32 h hφ hacc (ix1 r)).trans ?_
  have hf : (s ∘ h.lift (ix1 r)) = fun j : Fin 2048 => s (ix2 r j) := funext fun k => congrArg s (lift_row h r k)
  have hb : (FloatOps.ofBits (F := Ideal) .f32 0xFF800000#32 : EReal) = ⊥ := ofBits_negInf_f32
  rw [hf, hb]
  rfl

/-- The lane sum of row `r`: the sum of the row's entries. -/
theorem rowsum_apply (p : FVec Ideal S256x2048 .f32) (h : S256x2048.Reduces [1] S256) (hφ : FKind.Formats .f32)
    (hacc : (0x00000000#32 : BitVec 32) = 0x00000000#32) (r : Fin 256) :
    multiReduction (F := Ideal) .add [1] S256 p 0x00000000#32 h hφ hacc (ix1 r) = ∑ j : Fin 2048, p (ix2 r j) := by
  refine (Ideal.multiReduction_add_single p 0x00000000#32 h hφ hacc (ix1 r)).trans ?_
  exact Finset.sum_congr rfl fun k _ => congrArg p (lift_row h r k)

/-! ## The kernel's stages as functions of the values they read

The payload is cut into four stages, each a function of the vectors it reads: the projection of a chunk, the
scores of the projected rows against the keys, the exponentials of the scores shifted by their row's maximum,
and the weighted rows of the values divided by the row's sum of weights. The payloads are these stages
composed (`rfl`); each stage is read at an entry below. -/

/-- The chunk's projection `x · wᵀ`, the chunk read as a `[256, 1024]` matrix. -/
def projStage (v : FVec Ideal S1x256x1024 .f32) (w : FVec Ideal S1024x1024 .bf16) : FVec Ideal S256x1024 .f32 :=
  matmul (F := Ideal) (φ₁ := .bf16) (φ₂ := .bf16) dot_S256x1024_S1024x1024_S256x1024_1_1_0_0_n_n none
    (truncf .bf16 (shapeCast S256x1024 v shapeCasts_S1x256x1024_S256x1024 : FVec Ideal S256x1024 .f32) bitsLt_bf16_f32)
    (shapeCast S1024x1024 w shapeCasts_S1024x1024_S1024x1024)
    (constant S256x1024 .f32 0x00000000#32)

/-- The scores `q · kᵀ`. -/
def scoreStage (q : FVec Ideal S256x1024 .bf16) (k : FVec Ideal S2048x1024 .bf16) : FVec Ideal S256x2048 .f32 :=
  matmul (F := Ideal) (φ₁ := .bf16) (φ₂ := .bf16) dot_S256x1024_S2048x1024_S256x2048_1_1_0_0_n_n none q k (constant S256x2048 .f32 0x00000000#32)

/-- The weights `exp (s − max over the row)`. -/
def weightStage (s : FVec Ideal S256x2048 .f32) : FVec Ideal S256x2048 .f32 :=
  exp (F := Ideal) (φ := .f32) (subf (F := Ideal) (φ := .f32) s
    (broadcastTo S256x2048
      (shapeCast S256x1 (multiReduction (F := Ideal) .maximumf [1] S256 s 0xFF800000#32 reduces_S256x2048_S256 (.inl rfl) rfl)
        shapeCasts_S256_S256x1)
      broadcasts_S256x1_S256x2048))

/-- The weighted rows of the values, each divided by its row's sum of weights. -/
def mixStage (p : FVec Ideal S256x2048 .f32) (v : FVec Ideal S2048x1024 .bf16) : FVec Ideal S256x1024 .f32 :=
  divf (F := Ideal) (φ := .f32)
    (matmul (F := Ideal) (φ₁ := .bf16) (φ₂ := .bf16) dot_S256x2048_S2048x1024_S256x1024_1_0_0_1_n_n none (truncf .bf16 p bitsLt_bf16_f32) v
      (constant S256x1024 .f32 0x00000000#32))
    (broadcastTo S256x1024
      (shapeCast S256x1 (multiReduction (F := Ideal) .add [1] S256 p 0x00000000#32 reduces_S256x2048_S256 (.inl rfl) rfl)
        shapeCasts_S256_S256x1)
      broadcasts_S256x1_S256x1024)

/-- The stored chunk of keys or values is the projection stage, narrowed. -/
theorem k0_pay8_eq (v : Vec Ideal S1x256x1024 .f32) (w : Vec Ideal S1024x1024 .bf16) :
    k0_pay8 (F := Ideal) v w
      = shapeCast S256x1024 (truncf (F := Ideal) (φ := .f32) .bf16 (projStage v w) bitsLt_bf16_f32) shapeCasts_S256x1024_S256x1024 := rfl

/-- The attention payload is the four stages composed, with a unit axis put in front. -/
theorem k0_pay6_eq (v6 : Vec Ideal S1x256x1024 .f32) (v9 : Vec Ideal S1024x1024 .bf16)
    (v13 v14 : Vec Ideal S2048x1024 .bf16) :
    k0_pay6 (F := Ideal) v6 v9 v13 v14
      = shapeCast S1x256x1024
          (mixStage (weightStage (scoreStage (truncf (F := Ideal) (φ := .f32) .bf16 (projStage v6 v9) bitsLt_bf16_f32) v13)) v14)
          shapeCasts_S256x1024_S1x256x1024 := rfl

/-- The projection at `(r, e)`: row `r` of the chunk against row `e` of the weight. -/
theorem projStage_apply (v : FVec Ideal S1x256x1024 .f32) (w : FVec Ideal S1024x1024 .bf16) (r : Fin 256) (e : Fin 1024) :
    projStage v w (ix2 r e) = ∑ k : Fin 1024, v (ix3 (0 : Fin 1) r k) * w (ix2 e k) := by
  unfold projStage
  refine (matmul_proj_apply _ _ r e).trans ?_
  have hr : shapeCast S1024x1024 w shapeCasts_S1024x1024_S1024x1024 = w := shapeCast_self w _
  rw [hr]
  refine Finset.sum_congr rfl fun k _ => ?_
  have hl : (truncf (F := Ideal) (φ := .f32) .bf16 (shapeCast S256x1024 v shapeCasts_S1x256x1024_S256x1024) bitsLt_bf16_f32) (ix2 r k)
      = v (ix3 (0 : Fin 1) r k) := shapeCast_1ab_ab_apply v _ r k
  rw [hl]

/-- The scores at `(r, j)`: the row's score against key row `j`. -/
theorem scoreStage_apply (q : FVec Ideal S256x1024 .bf16) (k : FVec Ideal S2048x1024 .bf16) (r : Fin 256) (j : Fin 2048) :
    scoreStage q k (ix2 r j) = Cert.Attn.rowScore (fun e => q (ix2 r e)) k j :=
  matmul_score_apply q k r j

/-- The weights at `(r, j)`: the exponential of the entry less the fold of `max` over its row. -/
theorem weightStage_apply (s : FVec Ideal S256x2048 .f32) (r : Fin 256) (j : Fin 2048) :
    weightStage s (ix2 r j)
      = Ideal.exp (s (ix2 r j) - (Finset.univ : Finset (Fin 2048)).fold max ⊥ (fun j' => s (ix2 r j'))) := by
  have hm : broadcastTo S256x2048
        (shapeCast S256x1 (multiReduction (F := Ideal) .maximumf [1] S256 s 0xFF800000#32 reduces_S256x2048_S256 (.inl rfl) rfl)
          shapeCasts_S256_S256x1)
        broadcasts_S256x1_S256x2048 (ix2 r j)
      = (Finset.univ : Finset (Fin 2048)).fold max ⊥ (fun j' => s (ix2 r j')) :=
    (keepdims_apply _ _ _ r j).trans (rowmax_apply s _ _ _ r)
  exact congrArg (fun m => Ideal.exp (s (ix2 r j) - m)) hm

/-- The mixed rows at `(r, d)`: the weighted sum of the values' column `d` over the row's sum of weights. -/
theorem mixStage_apply (p : FVec Ideal S256x2048 .f32) (v : FVec Ideal S2048x1024 .bf16) (r : Fin 256) (d : Fin 1024) :
    mixStage p v (ix2 r d)
      = Ideal.div (∑ j : Fin 2048, p (ix2 r j) * v (ix2 j d)) (∑ j : Fin 2048, p (ix2 r j)) := by
  have hn : matmul (F := Ideal) (φ₁ := .bf16) (φ₂ := .bf16) dot_S256x2048_S2048x1024_S256x1024_1_0_0_1_n_n none (truncf .bf16 p bitsLt_bf16_f32) v
        (constant S256x1024 .f32 0x00000000#32) (ix2 r d)
      = ∑ j : Fin 2048, p (ix2 r j) * v (ix2 j d) := matmul_mix_apply _ v r d
  have hd : broadcastTo S256x1024
        (shapeCast S256x1 (multiReduction (F := Ideal) .add [1] S256 p 0x00000000#32 reduces_S256x2048_S256 (.inl rfl) rfl)
          shapeCasts_S256_S256x1)
        broadcasts_S256x1_S256x1024 (ix2 r d)
      = ∑ j : Fin 2048, p (ix2 r j) := (keepdims_apply _ _ _ r d).trans (rowsum_apply p _ _ _ r)
  exact congrArg₂ Ideal.div hn hd

/-! ## The payloads at an entry -/

/-- A stored chunk of keys or values at `(r, e)`: row `r` of the chunk against row `e` of the weight. -/
theorem chunk_apply (v : Vec Ideal S1x256x1024 .f32) (w : Vec Ideal S1024x1024 .bf16) (r : Fin 256) (e : Fin 1024) :
    k0_pay8 (F := Ideal) v w (ix2 r e) = ∑ k : Fin 1024, v (ix3 (0 : Fin 1) r k) * w (ix2 e k) := by
  rw [k0_pay8_eq, shapeCast_self]
  exact projStage_apply v w r e

/-- The attention payload at `(0, r, d)`: the late-normalised row of the projected query row `r`, at `d`. -/
theorem pay6_apply (v6 : Vec Ideal S1x256x1024 .f32) (v9 : Vec Ideal S1024x1024 .bf16)
    (v13 v14 : Vec Ideal S2048x1024 .bf16) (r : Fin 256) (d : Fin 1024) :
    k0_pay6 (F := Ideal) v6 v9 v13 v14 (ix3 (0 : Fin 1) r d)
      = Cert.Attn.rowLate (fun e => ∑ k : Fin 1024, v6 (ix3 (0 : Fin 1) r k) * v9 (ix2 e k)) v13 v14 d := by
  rw [k0_pay6_eq]
  refine (shapeCast_ab_1ab_apply _ _ 0 r d).trans ?_
  refine (mixStage_apply _ v14 r d).trans ?_
  have hq : (fun e : Fin 1024 => (truncf (F := Ideal) (φ := .f32) .bf16 (projStage v6 v9) bitsLt_bf16_f32) (ix2 r e))
      = fun e => ∑ k : Fin 1024, v6 (ix3 (0 : Fin 1) r k) * v9 (ix2 e k) :=
    funext fun e => projStage_apply v6 v9 r e
  have hs : ∀ j : Fin 2048, scoreStage (truncf (F := Ideal) (φ := .f32) .bf16 (projStage v6 v9) bitsLt_bf16_f32) v13 (ix2 r j)
      = Cert.Attn.rowScore (fun e => ∑ k : Fin 1024, v6 (ix3 (0 : Fin 1) r k) * v9 (ix2 e k)) v13 j := fun j =>
    (scoreStage_apply _ v13 r j).trans (congrArg (fun f => Cert.Attn.rowScore f v13 j) hq)
  have hw : ∀ j : Fin 2048,
      weightStage (scoreStage (truncf (F := Ideal) (φ := .f32) .bf16 (projStage v6 v9) bitsLt_bf16_f32) v13) (ix2 r j)
        = Cert.Attn.rowWeight (fun e => ∑ k : Fin 1024, v6 (ix3 (0 : Fin 1) r k) * v9 (ix2 e k)) v13 j := fun j => by
    refine (weightStage_apply _ r j).trans ?_
    unfold Cert.Attn.rowWeight Cert.Attn.rowMax
    rw [hs j, show (fun j' : Fin 2048 => scoreStage (truncf (F := Ideal) (φ := .f32) .bf16 (projStage v6 v9) bitsLt_bf16_f32) v13 (ix2 r j'))
      = Cert.Attn.rowScore (fun e => ∑ k : Fin 1024, v6 (ix3 (0 : Fin 1) r k) * v9 (ix2 e k)) v13 from funext hs]
  unfold Cert.Attn.rowLate Cert.Attn.rowDenom
  rw [Finset.sum_congr rfl fun j _ => congrArg (· * v14 (ix2 j d)) (hw j), Finset.sum_congr rfl fun j _ => hw j]

end Cert.KernelIdeal.PayloadValue

end
-- ==== Proof.Pieces.lean ====
/-
  What one grid point leaves behind, at the extended reals: the keys and values scratch after a point that rebuilds
  them (eight row chunks of 256, each the chunk of x times the transposed weights) is the whole projection of the
  batch's block, and the output tile is the attention payload of the point's query rows against the keys and
  values the scratch then holds.
-/
import proofs.«428826_j42820823941612_3_alg».proof.Proof.Gen.KernelIdeal.Frame
import proofs.«428826_j42820823941612_3_alg».proof.Proof.Spec
import proofs.«428826_j42820823941612_3_alg».proof.Proof.Payload
import Idealize.ShloMosaic.Lib.Pipeline.Value
import Idealize.ShloMosaic.Lib.ValueIdx

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

namespace Cert.KernelIdeal.PieceValue
open Cert.KernelIdeal Cert.KernelIdeal.Gen

/-- The projection of a batch's block: row `s`, column `e` is the inner product of `x[s, :]` with `W[e, :]`. -/
def projBlock (x0 : Vec Ideal S1x2048x1024 .f32) (w : Vec Ideal S1024x1024 .bf16) : Vec Ideal S2048x1024 .bf16 :=
  fun y => ∑ k : Fin 1024, x0 (ix3 (0 : Fin 1) (y 0) k) * w (ix2 (y 1) k)

theorem hz2 : (![0, 0] : Fin 2 → Nat) = fun _ => 0 := funext fun a => by fin_cases a <;> rfl
theorem hz3 : (![0, 0, 0] : Fin 3 → Nat) = fun _ => 0 := funext fun a => by fin_cases a <;> rfl

/-- The eight chunk payloads are one function of the chunk and the weights. -/
theorem pay4_eq (v : Vec Ideal S1x256x1024 .f32) (w : Vec Ideal S1024x1024 .bf16) : k0_pay4 v w = k0_pay8 v w := rfl
theorem pay1_eq (v : Vec Ideal S1x256x1024 .f32) (w : Vec Ideal S1024x1024 .bf16) : k0_pay1 (k0_pay29 v w) = k0_pay8 v w := rfl
theorem pay25_eq (v : Vec Ideal S1x256x1024 .f32) (w : Vec Ideal S1024x1024 .bf16) : k0_pay25 v w = k0_pay8 v w := rfl
theorem pay22_eq (v : Vec Ideal S1x256x1024 .f32) (w : Vec Ideal S1024x1024 .bf16) : k0_pay22 v w = k0_pay8 v w := rfl
theorem pay19_eq (v : Vec Ideal S1x256x1024 .f32) (w : Vec Ideal S1024x1024 .bf16) : k0_pay19 (k0_pay18 v) w = k0_pay8 v w := rfl
theorem pay16_eq (v : Vec Ideal S1x256x1024 .f32) (w : Vec Ideal S1024x1024 .bf16) : k0_pay16 v w = k0_pay8 v w := rfl
theorem pay13_eq (v : Vec Ideal S1x256x1024 .f32) (w : Vec Ideal S1024x1024 .bf16) : k0_pay13 (k0_pay12 v w) = k0_pay8 v w := rfl
theorem pay5_eq (v : Vec Ideal S1x256x1024 .f32) (w : Vec Ideal S1024x1024 .bf16) : k0_pay5 v w = k0_pay8 v w := rfl
theorem pay2_eq (v : Vec Ideal S1x256x1024 .f32) (w : Vec Ideal S1024x1024 .bf16) : k0_pay2 (k0_pay28 v w) = k0_pay8 v w := rfl
theorem pay26_eq (v : Vec Ideal S1x256x1024 .f32) (w : Vec Ideal S1024x1024 .bf16) : k0_pay26 v w = k0_pay8 v w := rfl
theorem pay23_eq (v : Vec Ideal S1x256x1024 .f32) (w : Vec Ideal S1024x1024 .bf16) : k0_pay23 v w = k0_pay8 v w := rfl
theorem pay20_eq (v : Vec Ideal S1x256x1024 .f32) (w : Vec Ideal S1024x1024 .bf16) : k0_pay20 (k0_pay18 v) w = k0_pay8 v w := rfl
theorem pay17_eq (v : Vec Ideal S1x256x1024 .f32) (w : Vec Ideal S1024x1024 .bf16) : k0_pay17 v w = k0_pay8 v w := rfl
theorem pay14_eq (v : Vec Ideal S1x256x1024 .f32) (w : Vec Ideal S1024x1024 .bf16) : k0_pay14 (k0_pay11 v w) = k0_pay8 v w := rfl
theorem pay9_eq (v : Vec Ideal S1x256x1024 .f32) (w : Vec Ideal S1024x1024 .bf16) : k0_pay9 v w = k0_pay8 v w := rfl

/-- One chunk's stored payload, at its local index, is the projection at the chunk's place in the block: rows
    `off … off + 255` of the block times the transposed weights. -/
theorem chunk_piece (x0 : Vec Ideal S1x2048x1024 .f32) (w : Vec Ideal S1024x1024 .bf16) (off : Nat)
    (inb3 : ∀ a, (![0, off, 0] : Fin 3 → Nat) a + S1x256x1024.size a ≤ S1x2048x1024.size a)
    (inb2 : ∀ a, (![off, 0] : Fin 2 → Nat) a + S256x1024.size a ≤ S2048x1024.size a)
    (inbw : ∀ a, (![0, 0] : Fin 2 → Nat) a + S1024x1024.size a ≤ S1024x1024.size a)
    (r : Fin 256) (e : Fin 1024) :
    k0_pay8 (View.ld x0 (Rect.unit (s := S1x2048x1024) ![0, off, 0] S1x256x1024.size inb3))
        (View.ld w (Rect.unit (s := S1024x1024) ![0, 0] S1024x1024.size inbw)) (ix2 r e)
      = projBlock x0 w ((Rect.unit (s := S2048x1024) ![off, 0] S256x1024.size inb2).emb (ix2 r e)) := by
  rw [View.ld_unit_zero (S := S1024x1024) hz2]
  rw [Cert.KernelIdeal.PayloadValue.chunk_apply]
  unfold projBlock
  refine Finset.sum_congr rfl fun k _ => ?_
  refine congrArg₂ (· * ·) (congrArg x0 (funext fun a => Fin.ext ?_)) (congrArg w (funext fun a => Fin.ext ?_))
  · match a with
    | ⟨0, _⟩ => rfl
    | ⟨1, _⟩ => rfl
    | ⟨2, _⟩ => show 0 + 1 * k.val = k.val; omega
  · match a with
    | ⟨0, _⟩ => show e.val = 0 + 1 * e.val; omega
    | ⟨1, _⟩ => rfl

/-- The canon of the eight stored key chunks is the projection of the point's block of `x` by the key weights: each
    chunk is the projection's rows at its place, and the chunks tile the scratch. -/
theorem keys_canon (c : Dev nD) (i : grid0.Coords) (arg2 : Memref sig .tc .vmem S1x2048x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x256x1024 .f32) (harg6 : arg6.IsWhole) (arg7 : Memref sig .tc .vmem S2048x1024 .bf16) (harg7 : arg7.IsWhole) (arg8 : Memref sig .tc .vmem S2048x1024 .bf16) (harg8 : arg8.IsWhole) (hc0 : cond0_0 i)
    (x0 : Vec Ideal S1x2048x1024 .f32) (x1 x2 x3 : Vec Ideal S1024x1024 .bf16) :
    View.canon (kernelRun0_A (F := Ideal) c i arg2 harg2 arg3 harg3 arg4 harg4 arg5 harg5 arg6 harg6 arg7 harg7 arg8 harg8 hc0 x0 x1 x2 x3).2.1 = projBlock x0 x2 := by
  funext y
  refine View.canon_apply_of_pieces (projBlock x0 x2) _ ?_ y (scover0_A_0 c i arg2 harg2 arg3 harg3 arg4 harg4 arg5 harg5 arg6 harg6 arg7 harg7 arg8 harg8 hc0 x0 x1 x2 x3 y)
  unfold kernelRun0_A; dsimp only; sl_unfold_words
  simp only [View.readAt_eq_ld, harg2.read_unread, harg4.read_unread, pay4_eq, pay1_eq, pay25_eq, pay22_eq, pay19_eq,
    pay16_eq, pay13_eq]
  intro p hp x
  simp only [List.mem_cons, List.not_mem_nil, or_false] at hp
  rcases hp with rfl | rfl | rfl | rfl | rfl | rfl | rfl | rfl
  all_goals (
    obtain ⟨r, e, rfl⟩ : ∃ (r : Fin 256) (e : Fin 1024), x = ix2 r e := ⟨x 0, x 1, eq_ix2 x⟩
    refine chunk_piece x0 x2 _ ?_ ?_ ?_ r e
    all_goals decide)

/-- The same of the eight stored value chunks, by the value weights. -/
theorem values_canon (c : Dev nD) (i : grid0.Coords) (arg2 : Memref sig .tc .vmem S1x2048x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x256x1024 .f32) (harg6 : arg6.IsWhole) (arg7 : Memref sig .tc .vmem S2048x1024 .bf16) (harg7 : arg7.IsWhole) (arg8 : Memref sig .tc .vmem S2048x1024 .bf16) (harg8 : arg8.IsWhole) (hc0 : cond0_0 i)
    (x0 : Vec Ideal S1x2048x1024 .f32) (x1 x2 x3 : Vec Ideal S1024x1024 .bf16) :
    View.canon (kernelRun0_A (F := Ideal) c i arg2 harg2 arg3 harg3 arg4 harg4 arg5 harg5 arg6 harg6 arg7 harg7 arg8 harg8 hc0 x0 x1 x2 x3).2.2.1 = projBlock x0 x3 := by
  funext y
  refine View.canon_apply_of_pieces (projBlock x0 x3) _ ?_ y (scover0_A_1 c i arg2 harg2 arg3 harg3 arg4 harg4 arg5 harg5 arg6 harg6 arg7 harg7 arg8 harg8 hc0 x0 x1 x2 x3 y)
  unfold kernelRun0_A; dsimp only; sl_unfold_words
  simp only [View.readAt_eq_ld, harg2.read_unread, harg5.read_unread, pay5_eq, pay2_eq, pay26_eq, pay23_eq, pay20_eq,
    pay17_eq, pay14_eq, pay9_eq]
  intro p hp x
  simp only [List.mem_cons, List.not_mem_nil, or_false] at hp
  rcases hp with rfl | rfl | rfl | rfl | rfl | rfl | rfl | rfl
  all_goals (
    obtain ⟨r, e, rfl⟩ : ∃ (r : Fin 256) (e : Fin 1024), x = ix2 r e := ⟨x 0, x 1, eq_ix2 x⟩
    refine chunk_piece x0 x3 _ ?_ ?_ ?_ r e
    all_goals decide)

/-- After a point that rebuilds them, the keys scratch holds the projection of the point's block by the key weights. -/
theorem keys_after_rebuild (c : Dev nD) (i : grid0.Coords) (arg2 : Memref sig .tc .vmem S1x2048x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x256x1024 .f32) (harg6 : arg6.IsWhole) (arg7 : Memref sig .tc .vmem S2048x1024 .bf16) (harg7 : arg7.IsWhole) (arg8 : Memref sig .tc .vmem S2048x1024 .bf16) (harg8 : arg8.IsWhole) (hc0 : cond0_0 i)
    (x0 : Vec Ideal S1x2048x1024 .f32) (x1 x2 x3 : Vec Ideal S1024x1024 .bf16) :
    sout0_A_0 (F := Ideal) c i arg2 harg2 arg3 harg3 arg4 harg4 arg5 harg5 arg6 harg6 arg7 harg7 arg8 harg8 hc0 x0 x1 x2 x3 = projBlock x0 x2 := by
  unfold sout0_A_0
  rw [View.read_writes_eq_canon _ _ _ (scover0_A_0 c i arg2 harg2 arg3 harg3 arg4 harg4 arg5 harg5 arg6 harg6 arg7 harg7 arg8 harg8 hc0 x0 x1 x2 x3)]
  exact keys_canon c i arg2 harg2 arg3 harg3 arg4 harg4 arg5 harg5 arg6 harg6 arg7 harg7 arg8 harg8 hc0 x0 x1 x2 x3

/-- … and the values scratch its projection by the value weights. -/
theorem values_after_rebuild (c : Dev nD) (i : grid0.Coords) (arg2 : Memref sig .tc .vmem S1x2048x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x256x1024 .f32) (harg6 : arg6.IsWhole) (arg7 : Memref sig .tc .vmem S2048x1024 .bf16) (harg7 : arg7.IsWhole) (arg8 : Memref sig .tc .vmem S2048x1024 .bf16) (harg8 : arg8.IsWhole) (hc0 : cond0_0 i)
    (x0 : Vec Ideal S1x2048x1024 .f32) (x1 x2 x3 : Vec Ideal S1024x1024 .bf16) :
    sout0_A_1 (F := Ideal) c i arg2 harg2 arg3 harg3 arg4 harg4 arg5 harg5 arg6 harg6 arg7 harg7 arg8 harg8 hc0 x0 x1 x2 x3 = projBlock x0 x3 := by
  unfold sout0_A_1
  rw [View.read_writes_eq_canon _ _ _ (scover0_A_1 c i arg2 harg2 arg3 harg3 arg4 harg4 arg5 harg5 arg6 harg6 arg7 harg7 arg8 harg8 hc0 x0 x1 x2 x3)]
  exact values_canon c i arg2 harg2 arg3 harg3 arg4 harg4 arg5 harg5 arg6 harg6 arg7 harg7 arg8 harg8 hc0 x0 x1 x2 x3

/-- The query rows a point reads: the 256 rows of its block of `x` that begin at the point's tile. -/
abbrev queryRows (i : grid0.Coords) (x0 : Vec Ideal S1x2048x1024 .f32) : Vec Ideal S1x256x1024 .f32 :=
  View.ld x0 (Rect.unit (s := S1x2048x1024) (k0_off3 i) S1x256x1024.size (k0_off3_inb i))

/-- The output tile of a point that rebuilds the scratch: the attention payload of its query rows against the keys and
    values it has just stored. -/
theorem tile_after_rebuild (c : Dev nD) (i : grid0.Coords) (arg2 : Memref sig .tc .vmem S1x2048x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x256x1024 .f32) (harg6 : arg6.IsWhole) (arg7 : Memref sig .tc .vmem S2048x1024 .bf16) (harg7 : arg7.IsWhole) (arg8 : Memref sig .tc .vmem S2048x1024 .bf16) (harg8 : arg8.IsWhole) (hc0 : cond0_0 i)
    (x0 : Vec Ideal S1x2048x1024 .f32) (x1 x2 x3 : Vec Ideal S1024x1024 .bf16) :
    out0_A_4 (F := Ideal) c i arg2 harg2 arg3 harg3 arg4 harg4 arg5 harg5 arg6 harg6 arg7 harg7 arg8 harg8 hc0 x0 x1 x2 x3
      = k0_pay6 (queryRows i x0) x1 (projBlock x0 x2) (projBlock x0 x3) := by
  unfold out0_A_4
  rw [View.read_writes_eq_canon _ _ _ (cover0_A_4 c i arg2 harg2 arg3 harg3 arg4 harg4 arg5 harg5 arg6 harg6 arg7 harg7 arg8 harg8 hc0 x0 x1 x2 x3)]
  unfold kernelRun0_A; dsimp only; sl_unfold_words
  rw [View.canon_unit_zero hz3]
  refine congr (congr (congrArg₂ k0_pay6 ?_ ?_) ?_) ?_
  · rw [View.readAt_eq_ld, harg2.read_unread]; rfl
  · rw [View.readAt_eq_ld, harg3.read_unread, View.ld_unit_zero (S := S1024x1024) hz2]
  · exact (View.readCov_eq_canon_ld _ _ _ (scover0_A_0 c i arg2 harg2 arg3 harg3 arg4 harg4 arg5 harg5 arg6 harg6 arg7 harg7 arg8 harg8 hc0 x0 x1 x2 x3)).trans
      ((View.ld_unit_zero (S := S2048x1024) hz2 _ _).trans (keys_canon c i arg2 harg2 arg3 harg3 arg4 harg4 arg5 harg5 arg6 harg6 arg7 harg7 arg8 harg8 hc0 x0 x1 x2 x3))
  · exact (View.readCov_eq_canon_ld _ _ _ (scover0_A_1 c i arg2 harg2 arg3 harg3 arg4 harg4 arg5 harg5 arg6 harg6 arg7 harg7 arg8 harg8 hc0 x0 x1 x2 x3)).trans
      ((View.ld_unit_zero (S := S2048x1024) hz2 _ _).trans (values_canon c i arg2 harg2 arg3 harg3 arg4 harg4 arg5 harg5 arg6 harg6 arg7 harg7 arg8 harg8 hc0 x0 x1 x2 x3))

/-- The output tile of a point that keeps the scratch: the same payload against the keys and values the point before
    left. -/
theorem tile_after_keep (c : Dev nD) (i : grid0.Coords) (arg2 : Memref sig .tc .vmem S1x2048x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x256x1024 .f32) (harg6 : arg6.IsWhole) (arg7 : Memref sig .tc .vmem S2048x1024 .bf16) (harg7 : arg7.IsWhole) (arg8 : Memref sig .tc .vmem S2048x1024 .bf16) (harg8 : arg8.IsWhole) (hc0 : ¬cond0_0 i)
    (x0 : Vec Ideal S1x2048x1024 .f32) (x1 x2 x3 : Vec Ideal S1024x1024 .bf16) (xs0 xs1 : Vec Ideal S2048x1024 .bf16) :
    out0_B_4 (F := Ideal) c i arg2 harg2 arg3 harg3 arg4 harg4 arg5 harg5 arg6 harg6 arg7 harg7 arg8 harg8 hc0 x0 x1 x2 x3 xs0 xs1
      = k0_pay6 (queryRows i x0) x1 xs0 xs1 := by
  unfold out0_B_4
  rw [View.read_writes_eq_canon _ _ _ (cover0_B_4 c i arg2 harg2 arg3 harg3 arg4 harg4 arg5 harg5 arg6 harg6 arg7 harg7 arg8 harg8 hc0 x0 x1 x2 x3 xs0 xs1)]
  unfold kernelRun0_B; dsimp only; sl_unfold_words
  rw [View.canon_unit_zero hz3]
  refine congr (congr (congrArg₂ k0_pay6 ?_ ?_) ?_) ?_
  · rw [View.readAt_eq_ld, harg2.read_unread]; rfl
  · rw [View.readAt_eq_ld, harg3.read_unread, View.ld_unit_zero (S := S1024x1024) hz2]
  · rw [View.readAt_eq_ld, harg7.read_unread, View.ld_unit_zero (S := S2048x1024) hz2]
  · rw [View.readAt_eq_ld, harg8.read_unread, View.ld_unit_zero (S := S2048x1024) hz2]

end Cert.KernelIdeal.PieceValue

end
-- ==== Proof.BlockReads.lean ====
/-
  The windows' blocks as restrictions of the argument arrays. The grid is (4, 8): point t is batch b = t / 8 and
  query tile qi = t % 8. Window 0's block at t is batch b of the activations, [1, 2048, 1024] at block index
  (b, 0, 0); windows 1 to 3 are the three whole [1024, 1024] weight arrays, each written before the grid runs as
  the bf16 rounding of an argument, which on the extended reals is the argument itself; window 4's block is rows
  qi * 256 to qi * 256 + 255 of batch b of the output, [1, 256, 1024] at block index (b, qi, 0). A block's
  coordinate on an axis is the block index times the block's extent plus the coordinate inside the block, so each
  read of a block at an index is a read of the array at an index given in closed form; and since every
  (batch, row) pair lies in exactly the block of point 8 * batch + row / 256, window 4's blocks cover its array.
-/
import proofs.«428826_j42820823941612_3_alg».proof.Proof.Gen.KernelIdeal.Value
import Idealize.ShloMosaic.Lib.ValueIdx
import Idealize.ShloMosaic.Lib.Pipeline.Value
import Idealize.ShloMosaic.Lib.StableHlo.Run

set_option maxRecDepth 16384

noncomputable section

open Idealize.ShloMosaic Idealize.ShloMosaic.ValueIdx Idealize.ShloMosaic.TcCoe Idealize.SL.Sem

namespace Cert.KernelIdeal.BlockValue
open Cert.KernelIdeal Cert.KernelIdeal.Gen

variable (m : (ℓ : Loc nD τ sig) → Buf (Elt Ideal) ℓ)

/-! ## The grid's arithmetic -/

/-- A point's batch t / 8 is below 4: there are 32 points. -/
theorem batch_lt (t : Fin cfg0.N) : t.val / 8 < 4 := by
  have h : t.val < 32 := lt_of_lt_of_eq t.isLt (show cfg0.N = 32 from N_0); omega
/-- Row r of query tile t % 8 is row (t % 8) * 256 + r of the 2048 rows of a batch. -/
theorem row_lt (t : Fin cfg0.N) (r : Fin 256) : t.val % 8 * 256 + r.val < 2048 := by
  have := r.isLt; omega

/-- The five index maps at point t, over the 32 points: window 0 is at block (t / 8, 0, 0), windows 1 to 3 at
    block (0, 0), window 4 at block (t / 8, t % 8, 0). -/
theorem idx_facts : ∀ t : Fin cfg0.N,
    win0_0.index t (0 : Fin 3) = t.val / 8 ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val / 8 ∧ win0_4.index t (1 : Fin 3) = t.val % 8 ∧ win0_4.index t (2 : Fin 3) = 0 :=
  (by decide +kernel : ∀ t : Fin grid0.N, _)

/-- The second grid coordinate of point t is the query tile t % 8. -/
theorem coord1_val : ∀ t : Fin cfg0.N, ((grid0.coords t) 1).val = t.val % 8 :=
  (by decide +kernel : ∀ t : Fin grid0.N, _)

/-- The body's load of its query rows from window 0's block starts at row (t % 8) * 256: 256 times the
    second grid coordinate. -/
theorem off3_val (t : Fin cfg0.N) : k0_off3 (grid0.coords t) = ![0, t.val % 8 * 256, 0] := by
  rw [k0_off3_eq, coord1_val t, Nat.mul_comm]

/-! ## Window 0: one batch of the activations -/

/-- Index (0, s, k) of window 0's block at point t is index (t / 8, s, k) of the activations: per axis, block
    index times extent plus the coordinate inside, with extents (1, 2048, 1024) and block index (t / 8, 0, 0). -/
theorem blk0_emb (t : Fin cfg0.N) (s : Fin 2048) (k : Fin 1024) :
    ((cfg0.win 0).blk t).view.emb (ix3 (0 : Fin 1) s k) = ix3 (⟨t.val / 8, batch_lt t⟩ : Fin 4) s k := by
  obtain ⟨e0, e1, e2, -⟩ := idx_facts t
  funext a; apply Fin.ext
  match a with
  | ⟨0, _⟩ => show win0_0.index t (0 : Fin 3) * 1 + 1 * 0 = t.val / 8; omega
  | ⟨1, _⟩ => show win0_0.index t (1 : Fin 3) * 2048 + 1 * s.val = s.val; omega
  | ⟨2, _⟩ => show win0_0.index t (2 : Fin 3) * 1024 + 1 * k.val = k.val; omega

/-- Window 0's block at point t, read at (0, s, k), is the activations at (t / 8, s, k): nothing writes the
    activations before the grid runs. -/
theorem iblk0_apply (c : Dev nD) (t : Fin cfg0.N) (s : Fin 2048) (k : Fin 1024) :
    iblk m c 0 t (ix3 (0 : Fin 1) s k) = m ((c : Thread nD τ).loc main_arg0) (ix3 (⟨t.val / 8, batch_lt t⟩ : Fin 4) s k) := by
  unfold iblk
  show V m c main_arg0 (((cfg0.win 0).blk t).view.emb (ix3 (0 : Fin 1) s k)) = _
  rw [blk0_emb, V_main_arg0 m c]

/-! ## Windows 1 to 3: the whole weight arrays -/

/-- The array window 1 stages is written before the grid runs as the bf16 rounding of argument 1; on the
    extended reals a rounding is the identity, so the array is argument 1 itself. -/
theorem V_main_v0 (c : Dev nD) :
    (V m c main_v0 : S1024x1024.Idx → EReal) = (m ((c : Thread nD τ).loc main_arg1) : S1024x1024.Idx → EReal) := by
  dsimp only [Gen.V, Gen.hostOps0]
  after_results
  rfl

/-- Window 1's block is the whole [1024, 1024] array at every grid point (block index (0, 0)): an index of the
    block is the same index of the array. -/
theorem blk1_emb (t : Fin cfg0.N) (e k : Fin 1024) :
    ((cfg0.win 1).blk t).view.emb (ix2 e k) = ix2 e k := by
  obtain ⟨-, -, -, e0, e1, -⟩ := idx_facts t
  funext a; apply Fin.ext
  match a with
  | ⟨0, _⟩ => show win0_1.index t (0 : Fin 2) * 1024 + 1 * e.val = e.val; omega
  | ⟨1, _⟩ => show win0_1.index t (1 : Fin 2) * 1024 + 1 * k.val = k.val; omega

/-- Window 1's block at any grid point, read at (e, k), is argument 1 at (e, k). -/
theorem iblk1_apply (c : Dev nD) (t : Fin cfg0.N) (e k : Fin 1024) :
    iblk m c 1 t (ix2 e k) = m ((c : Thread nD τ).loc main_arg1) (ix2 e k) := by
  unfold iblk
  show (V m c main_v0 : S1024x1024.Idx → EReal) (((cfg0.win 1).blk t).view.emb (ix2 e k)) = _
  rw [blk1_emb, V_main_v0 m c]

/-- The array window 2 stages is written before the grid runs as the bf16 rounding of argument 2; on the
    extended reals a rounding is the identity, so the array is argument 2 itself. -/
theorem V_main_v1 (c : Dev nD) :
    (V m c main_v1 : S1024x1024.Idx → EReal) = (m ((c : Thread nD τ).loc main_arg2) : S1024x1024.Idx → EReal) := by
  dsimp only [Gen.V, Gen.hostOps0]
  after_results
  rfl

/-- Window 2's block is the whole [1024, 1024] array at every grid point (block index (0, 0)): an index of the
    block is the same index of the array. -/
theorem blk2_emb (t : Fin cfg0.N) (e k : Fin 1024) :
    ((cfg0.win 2).blk t).view.emb (ix2 e k) = ix2 e k := by
  obtain ⟨-, -, -, -, -, e0, e1, -⟩ := idx_facts t
  funext a; apply Fin.ext
  match a with
  | ⟨0, _⟩ => show win0_2.index t (0 : Fin 2) * 1024 + 1 * e.val = e.val; omega
  | ⟨1, _⟩ => show win0_2.index t (1 : Fin 2) * 1024 + 1 * k.val = k.val; omega

/-- Window 2's block at any grid point, read at (e, k), is argument 2 at (e, k). -/
theorem iblk2_apply (c : Dev nD) (t : Fin cfg0.N) (e k : Fin 1024) :
    iblk m c 2 t (ix2 e k) = m ((c : Thread nD τ).loc main_arg2) (ix2 e k) := by
  unfold iblk
  show (V m c main_v1 : S1024x1024.Idx → EReal) (((cfg0.win 2).blk t).view.emb (ix2 e k)) = _
  rw [blk2_emb, V_main_v1 m c]

/-- The array window 3 stages is written before the grid runs as the bf16 rounding of argument 3; on the
    extended reals a rounding is the identity, so the array is argument 3 itself. -/
theorem V_main_v2 (c : Dev nD) :
    (V m c main_v2 : S1024x1024.Idx → EReal) = (m ((c : Thread nD τ).loc main_arg3) : S1024x1024.Idx → EReal) := by
  dsimp only [Gen.V, Gen.hostOps0]
  after_results
  rfl

/-- Window 3's block is the whole [1024, 1024] array at every grid point (block index (0, 0)): an index of the
    block is the same index of the array. -/
theorem blk3_emb (t : Fin cfg0.N) (e k : Fin 1024) :
    ((cfg0.win 3).blk t).view.emb (ix2 e k) = ix2 e k := by
  obtain ⟨-, -, -, -, -, -, -, e0, e1, -⟩ := idx_facts t
  funext a; apply Fin.ext
  match a with
  | ⟨0, _⟩ => show win0_3.index t (0 : Fin 2) * 1024 + 1 * e.val = e.val; omega
  | ⟨1, _⟩ => show win0_3.index t (1 : Fin 2) * 1024 + 1 * k.val = k.val; omega

/-- Window 3's block at any grid point, read at (e, k), is argument 3 at (e, k). -/
theorem iblk3_apply (c : Dev nD) (t : Fin cfg0.N) (e k : Fin 1024) :
    iblk m c 3 t (ix2 e k) = m ((c : Thread nD τ).loc main_arg3) (ix2 e k) := by
  unfold iblk
  show (V m c main_v2 : S1024x1024.Idx → EReal) (((cfg0.win 3).blk t).view.emb (ix2 e k)) = _
  rw [blk3_emb, V_main_v2 m c]

/-! ## Window 4: one query tile of one batch of the output -/

/-- Index (0, r, d) of window 4's block at point t is index (t / 8, (t % 8) * 256 + r, d) of the output: per
    axis, block index times extent plus the coordinate inside, with extents (1, 256, 1024) and block index
    (t / 8, t % 8, 0). -/
theorem blk4_emb (t : Fin cfg0.N) (r : Fin 256) (d : Fin 1024) :
    ((cfg0.win 4).blk t).view.emb (ix3 (0 : Fin 1) r d)
      = ix3 (⟨t.val / 8, batch_lt t⟩ : Fin 4) (⟨t.val % 8 * 256 + r.val, row_lt t r⟩ : Fin 2048) d := by
  obtain ⟨-, -, -, -, -, -, -, -, -, e0, e1, e2⟩ := idx_facts t
  funext a; apply Fin.ext
  match a with
  | ⟨0, _⟩ => show win0_4.index t (0 : Fin 3) * 1 + 1 * 0 = t.val / 8; omega
  | ⟨1, _⟩ => show win0_4.index t (1 : Fin 3) * 256 + 1 * r.val = t.val % 8 * 256 + r.val; omega
  | ⟨2, _⟩ => show win0_4.index t (2 : Fin 3) * 1024 + 1 * d.val = d.val; omega

/-- An index of the output is in point t's block iff on each axis its coordinate lies in the block's range:
    from block index times extent, for the extent. -/
theorem mem_blk4 (t : Fin cfg0.N) (i : S4x2048x1024.Idx) :
    i ∈ ((cfg0.win 4).blk t).view.set ↔ ∀ a : Fin 3, win0_4.index t a * S1x256x1024.size a ≤ (i a).val ∧ (i a).val < win0_4.index t a * S1x256x1024.size a + S1x256x1024.size a := by
  show i ∈ ((View.whole main_v3).slice (win0_4.rect t)).set ↔ _
  rw [View.set_slice_whole, Rect.mem_set_unit]
  exact Iff.rfl

/-- Index (b, s, d) of the output lies in the block of point 8 * b + s / 256, whose batch is b and whose query
    tile is s / 256: then s lies between (s / 256) * 256 and (s / 256) * 256 + 255. -/
theorem cover4_at (i : S4x2048x1024.Idx) :
    ∃ t : Fin cfg0.N, (cfg0.win 4).flush t = true ∧ i ∈ ((cfg0.win 4).blk t).view.set := by
  have hi0 : (i 0).val < 4 := (i 0).isLt
  have hi1 : (i 1).val < 2048 := (i 1).isLt
  have hi2 : (i 2).val < 1024 := (i 2).isLt
  have hb : 8 * (i 0).val + (i 1).val / 256 < cfg0.N :=
    lt_of_lt_of_eq (by omega : 8 * (i 0).val + (i 1).val / 256 < 32) (show cfg0.N = 32 from N_0).symm
  obtain ⟨-, -, -, -, -, -, -, -, -, e0, e1, e2⟩ := idx_facts ⟨8 * (i 0).val + (i 1).val / 256, hb⟩
  have ht : (⟨8 * (i 0).val + (i 1).val / 256, hb⟩ : Fin cfg0.N).val = 8 * (i 0).val + (i 1).val / 256 := rfl
  refine ⟨⟨8 * (i 0).val + (i 1).val / 256, hb⟩, flush0_4 _, ?_⟩
  rw [mem_blk4]
  intro a
  match a with
  | ⟨0, _⟩ =>
    show win0_4.index ⟨8 * (i 0).val + (i 1).val / 256, hb⟩ (0 : Fin 3) * 1 ≤ (i 0).val
      ∧ (i 0).val < win0_4.index ⟨8 * (i 0).val + (i 1).val / 256, hb⟩ (0 : Fin 3) * 1 + 1
    omega
  | ⟨1, _⟩ =>
    show win0_4.index ⟨8 * (i 0).val + (i 1).val / 256, hb⟩ (1 : Fin 3) * 256 ≤ (i 1).val
      ∧ (i 1).val < win0_4.index ⟨8 * (i 0).val + (i 1).val / 256, hb⟩ (1 : Fin 3) * 256 + 256
    omega
  | ⟨2, _⟩ =>
    show win0_4.index ⟨8 * (i 0).val + (i 1).val / 256, hb⟩ (2 : Fin 3) * 1024 ≤ (i 2).val
      ∧ (i 2).val < win0_4.index ⟨8 * (i 0).val + (i 1).val / 256, hb⟩ (2 : Fin 3) * 1024 + 1024
    omega

/-- Every index of the output is in the block of some point, and every point writes its block back: the 32
    blocks cover the array. -/
theorem cover4 (c : Dev nD) : ∀ i : ((cfg0.win 4).arr.view.loc (c.tc : Thread nD τ)).2.ty.Idx,
    ∃ t : Fin cfg0.N, (cfg0.win 4).flush t = true ∧ i ∈ ((cfg0.win 4).blk t).view.set :=
  fun i => cover4_at i

end Cert.KernelIdeal.BlockValue

end
-- ==== Proof.KernelValue.lean ====
/-
  The kernel's result array, at the extended reals. The grid has 32 points: point t works on batch t / 8 and on
  the query tile t % 8. The first point of a batch stores the batch's keys and values (the projections of the
  batch's activations) into two scratch buffers; the seven points after it find them there. By induction over
  the points the scratch after point t holds the keys and values of batch t / 8, so every point's output tile
  is attention of its 256 query rows against its own batch's keys and values, with the normalisation last:
  a block of ONE function of the argument arrays. The 32 tiles cover the output.
-/
import proofs.«428826_j42820823941612_3_alg».proof.Proof.Gen.KernelIdeal.Value
import proofs.«428826_j42820823941612_3_alg».proof.Proof.Spec
import proofs.«428826_j42820823941612_3_alg».proof.Proof.Payload
import proofs.«428826_j42820823941612_3_alg».proof.Proof.Pieces
import proofs.«428826_j42820823941612_3_alg».proof.Proof.BlockReads
import Idealize.ShloMosaic.Lib.Pipeline.Value
import Idealize.ShloMosaic.Lib.ValueIdx

set_option maxRecDepth 16384

noncomputable section

open Idealize.ShloMosaic Idealize.ShloMosaic.ValueIdx Idealize.ShloMosaic.TcCoe Idealize.SL.Sem
open Idealize.ShloMosaic.Pipeline (Dat)

namespace Cert.KernelIdeal.AttnValue
open Cert.KernelIdeal Cert.KernelIdeal.Gen Cert.KernelIdeal.PieceValue Cert.KernelIdeal.BlockValue

variable (m : (ℓ : Loc nD τ sig) → Buf (Elt Ideal) ℓ) (ρ : Dev nD → PrngReg)

/-! ## The argument arrays and the windows' blocks, at their literal types -/

abbrev X (c : Dev nD) : Cert.Attn.SX.Idx → EReal := m ((c : Thread nD τ).loc main_arg0)
abbrev Wq (c : Dev nD) : Cert.Attn.SW.Idx → EReal := m ((c : Thread nD τ).loc main_arg1)
abbrev Wk (c : Dev nD) : Cert.Attn.SW.Idx → EReal := m ((c : Thread nD τ).loc main_arg2)
abbrev Wv (c : Dev nD) : Cert.Attn.SW.Idx → EReal := m ((c : Thread nD τ).loc main_arg3)

abbrev xblk (c : Dev nD) (t : Fin cfg0.N) : Vec Ideal S1x2048x1024 .f32 := iblk m c 0 t
abbrev wqblk (c : Dev nD) (t : Fin cfg0.N) : Vec Ideal S1024x1024 .bf16 := iblk m c 1 t
abbrev wkblk (c : Dev nD) (t : Fin cfg0.N) : Vec Ideal S1024x1024 .bf16 := iblk m c 2 t
abbrev wvblk (c : Dev nD) (t : Fin cfg0.N) : Vec Ideal S1024x1024 .bf16 := iblk m c 3 t

/-- The batch of a point. -/
abbrev batch (t : Fin cfg0.N) : Fin 4 := ⟨t.val / 8, batch_lt t⟩

/-- The keys of batch `b`, as the scratch holds them. -/
abbrev keys (c : Dev nD) (b : Fin 4) : Vec Ideal S2048x1024 .bf16 := Cert.Attn.projMat (X m c) (Wk m c) b
/-- The values of batch `b`. -/
abbrev vals (c : Dev nD) (b : Fin 4) : Vec Ideal S2048x1024 .bf16 := Cert.Attn.projMat (X m c) (Wv m c) b

/-- The projection of a point's block of the activations by the key weights is the keys of the point's batch. -/
theorem projBlock_keys (c : Dev nD) (t : Fin cfg0.N) :
    projBlock (xblk m c t) (wkblk m c t) = keys m c (batch t) := by
  funext y
  show ∑ k : Fin 1024, xblk m c t (ix3 (0 : Fin 1) (y 0) k) * wkblk m c t (ix2 (y 1) k)
    = ∑ k : Fin 1024, X m c (ix3 (batch t) (y 0) k) * Wk m c (ix2 (y 1) k)
  refine Finset.sum_congr rfl fun k _ => ?_
  exact congrArg₂ (· * ·) (iblk0_apply m c t (y 0) k) (iblk2_apply m c t (y 1) k)

/-- … and by the value weights, the values. -/
theorem projBlock_vals (c : Dev nD) (t : Fin cfg0.N) :
    projBlock (xblk m c t) (wvblk m c t) = vals m c (batch t) := by
  funext y
  show ∑ k : Fin 1024, xblk m c t (ix3 (0 : Fin 1) (y 0) k) * wvblk m c t (ix2 (y 1) k)
    = ∑ k : Fin 1024, X m c (ix3 (batch t) (y 0) k) * Wv m c (ix2 (y 1) k)
  refine Finset.sum_congr rfl fun k _ => ?_
  exact congrArg₂ (· * ·) (iblk0_apply m c t (y 0) k) (iblk3_apply m c t (y 1) k)

/-! ## What the staging buffer and the scratch hold after each point -/

/-- The output tile of point `t`, given the keys and values its batch's scratch holds. -/
abbrev tileOf (c : Dev nD) (t : Fin cfg0.N) : Vec Ideal S1x256x1024 .f32 :=
  k0_pay6 (queryRows (grid0.coords t) (xblk m c t)) (wqblk m c t) (keys m c (batch t)) (vals m c (batch t))

/-- THE INVARIANT: after point `n` the output's staging buffer holds the point's tile and the two scratch buffers
    the keys and the values of the point's batch — at the batch's first point because the point stores them, at the
    others because the point before left them and the batch has not changed. -/
theorem after_point (c : Dev nD) : ∀ (n : ℕ) (hn : n < cfg0.N),
    outsAt0 m c n hn = (tileOf m c ⟨n, hn⟩, keys m c (batch ⟨n, hn⟩), vals m c (batch ⟨n, hn⟩)) := by
  intro n
  induction n using Nat.strong_induction_on with
  | _ n ih =>
    intro hn
    have hN : n < 32 := lt_of_lt_of_eq hn (show cfg0.N = 32 from N_0)
    by_cases h0 : n % 8 = 0
    · rw [outsAt0_A m c ⟨n, hn⟩ h0]
      refine congrArg₂ Prod.mk ?_ (congrArg₂ Prod.mk ?_ ?_)
      · refine (tile_after_rebuild c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) scM0_0 (Memref.isWhole_whole _) scM0_1 (Memref.isWhole_whole _) ((hcond0_0 ⟨n, hn⟩).mpr h0)
          (xblk m c ⟨n, hn⟩) (wqblk m c ⟨n, hn⟩) (wkblk m c ⟨n, hn⟩) (wvblk m c ⟨n, hn⟩)).trans ?_
        rw [projBlock_keys m c ⟨n, hn⟩, projBlock_vals m c ⟨n, hn⟩]
      · exact (keys_after_rebuild c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) scM0_0 (Memref.isWhole_whole _) scM0_1 (Memref.isWhole_whole _) ((hcond0_0 ⟨n, hn⟩).mpr h0)
          (xblk m c ⟨n, hn⟩) (wqblk m c ⟨n, hn⟩) (wkblk m c ⟨n, hn⟩) (wvblk m c ⟨n, hn⟩)).trans (projBlock_keys m c ⟨n, hn⟩)
      · exact (values_after_rebuild c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) scM0_0 (Memref.isWhole_whole _) scM0_1 (Memref.isWhole_whole _) ((hcond0_0 ⟨n, hn⟩).mpr h0)
          (xblk m c ⟨n, hn⟩) (wqblk m c ⟨n, hn⟩) (wkblk m c ⟨n, hn⟩) (wvblk m c ⟨n, hn⟩)).trans (projBlock_vals m c ⟨n, hn⟩)
    · have hprev : n - 1 < cfg0.N := Nat.lt_of_le_of_lt (Nat.sub_le _ _) hn
      have hb : batch (⟨n - 1, hprev⟩ : Fin cfg0.N) = batch ⟨n, hn⟩ := Fin.ext (by show (n - 1) / 8 = n / 8; omega)
      have hp := ih (n - 1) (by omega) hprev
      rw [outsAt0_B m c ⟨n, hn⟩ h0]
      dsimp only
      rw [hp]
      dsimp only
      unfold sout0_B_0 sout0_B_1
      rw [hb]
      refine congrArg₂ Prod.mk ?_ rfl
      exact tile_after_keep c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) scM0_0 (Memref.isWhole_whole _) scM0_1 (Memref.isWhole_whole _) (fun h => h0 ((hcond0_0 ⟨n, hn⟩).mp h))
        (xblk m c ⟨n, hn⟩) (wqblk m c ⟨n, hn⟩) (wkblk m c ⟨n, hn⟩) (wvblk m c ⟨n, hn⟩) (keys m c (batch ⟨n, hn⟩)) (vals m c (batch ⟨n, hn⟩))

/-! ## A tile is a block of one function of the arguments -/

/-- Row `r` of the query rows a point reads is row `(t % 8) * 256 + r` of its batch of the activations. -/
theorem queryRows_apply (c : Dev nD) (t : Fin cfg0.N) (r : Fin 256) (k : Fin 1024) :
    queryRows (grid0.coords t) (xblk m c t) (ix3 (0 : Fin 1) r k)
      = X m c (ix3 (batch t) (⟨t.val % 8 * 256 + r.val, row_lt t r⟩ : Fin 2048) k) := by
  have e : (Rect.unit (s := S1x2048x1024) (k0_off3 (grid0.coords t)) S1x256x1024.size (k0_off3_inb (grid0.coords t))).idx (ix3 (0 : Fin 1) r k)
      = ix3 (0 : Fin 1) (⟨t.val % 8 * 256 + r.val, row_lt t r⟩ : Fin 2048) k := by
    funext a; apply Fin.ext
    match a with
    | ⟨0, _⟩ => show k0_off3 (grid0.coords t) 0 + 1 * 0 = 0; rw [off3_val t]; rfl
    | ⟨1, _⟩ => show k0_off3 (grid0.coords t) 1 + 1 * r.val = t.val % 8 * 256 + r.val; rw [off3_val t]; show t.val % 8 * 256 + 1 * r.val = _; omega
    | ⟨2, _⟩ => show k0_off3 (grid0.coords t) 2 + 1 * k.val = k.val; rw [off3_val t]; show 0 + 1 * k.val = _; omega
  show xblk m c t ((Rect.unit (s := S1x2048x1024) (k0_off3 (grid0.coords t)) S1x256x1024.size (k0_off3_inb (grid0.coords t))).idx (ix3 (0 : Fin 1) r k)) = _
  rw [e]
  exact iblk0_apply m c t _ k

/-- A point's tile at `(0, r, d)` is attention (normalisation last) at `(t / 8, (t % 8) * 256 + r, d)`. -/
theorem tileOf_apply (c : Dev nD) (t : Fin cfg0.N) (r : Fin 256) (d : Fin 1024) :
    tileOf m c t (ix3 (0 : Fin 1) r d)
      = Cert.Attn.attnLate (X m c) (Wq m c) (Wk m c) (Wv m c)
          (ix3 (batch t) (⟨t.val % 8 * 256 + r.val, row_lt t r⟩ : Fin 2048) d) := by
  refine (Cert.KernelIdeal.PayloadValue.pay6_apply (queryRows (grid0.coords t) (xblk m c t)) (wqblk m c t)
    (keys m c (batch t)) (vals m c (batch t)) r d).trans ?_
  show _ = Cert.Attn.rowLate (Cert.Attn.projRow (X m c) (Wq m c) (batch t) ⟨t.val % 8 * 256 + r.val, row_lt t r⟩)
    (keys m c (batch t)) (vals m c (batch t)) d
  refine congrArg (fun q => Cert.Attn.rowLate q (keys m c (batch t)) (vals m c (batch t)) d) (funext fun e => ?_)
  show ∑ k : Fin 1024, queryRows (grid0.coords t) (xblk m c t) (ix3 (0 : Fin 1) r k) * wqblk m c t (ix2 e k)
    = ∑ k : Fin 1024, X m c (ix3 (batch t) ⟨t.val % 8 * 256 + r.val, row_lt t r⟩ k) * Wq m c (ix2 e k)
  refine Finset.sum_congr rfl fun k _ => ?_
  exact congrArg₂ (· * ·) (queryRows_apply m c t r k) (iblk1_apply m c t e k)

/-- WHAT POINT `t` WRITES BACK is its block of attention of the argument arrays. -/
theorem flushed_eq (c : Dev nD) (t : Fin cfg0.N) :
    (dats m 0 c).flushed 4 t
      = ((cfg0.win 4).blk t).view.read (Elt Ideal) (Cert.Attn.attnLate (X m c) (Wq m c) (Wk m c) (Wv m c)) := by
  rw [Cert.KernelIdeal.Value.flushed4, after_point m c t.val t.isLt]
  funext j
  obtain ⟨u, r, d, rfl⟩ : ∃ (u : Fin 1) (r : Fin 256) (d : Fin 1024), j = ix3 u r d := ⟨j 0, j 1, j 2, eq_ix3 j⟩
  obtain rfl : u = 0 := Subsingleton.elim _ _
  show tileOf m c t (ix3 (0 : Fin 1) r d)
    = Cert.Attn.attnLate (X m c) (Wq m c) (Wk m c) (Wv m c) (((cfg0.win 4).blk t).view.emb (ix3 (0 : Fin 1) r d))
  rw [blk4_emb t r d]
  exact tileOf_apply m c t r d

/-- THE ARRAY after the run: attention, normalisation last, of the argument arrays. -/
theorem final (c : Dev nD) :
    (dats m 0 c).arrAt 4 cfg0.N = Cert.Attn.attnLate (X m c) (Wq m c) (Wk m c) (Wv m c) :=
  (dats m 0 c).arrAt_eq_of_cover 4 _ (fun t _ => flushed_eq m c t) (cover4 c)

/-- The run, read: the result array at attention of the arguments, the arguments unchanged. -/
theorem run : θ_run defs (onTc (τ := τ) (main (F := Ideal))) ⟨m, fun _ => 0, ρ⟩ fun r => ∀ c : Dev nD,
      r.2.mem ((c : Thread nD τ).loc main_v3) = Cert.Attn.attnLate (X m c) (Wq m c) (Wk m c) (Wv m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.KernelIdeal.AttnValue

end
-- ==== Proof.lean ====
/-
  Self-attention without the 1/sqrt(d) scale (queries, keys and values by three weight matrices, softmax over the
  key axis, weighted average of the values), a fused kernel against its reference, on the extended reals.
  The kernel works tile by tile: for each batch it first projects the keys and values of the whole batch into two
  buffers that stay in place for the batch's eight query tiles, then for each tile of 256 query rows computes the
  scores, subtracts each row's maximum, exponentiates, and divides the weighted sum of the value rows by the row's
  sum of weights. The reference normalises the weights first and then averages. Every format change of the kernel
  is the identity on the extended reals, a matrix product into a zero accumulator is the plain sum of products, and
  the two orders of normalisation agree because, the inputs being finite, every weight is a positive real and so is
  their sum: (∑ p v) / L = ∑ (p / L) v. The kernel's result array is read off its run (`KernelValue`), the
  reference's off its operations one at a time (`RefSpec`), the law is `Law`, and finiteness of the inputs is read
  off the precondition (`Finite`).
-/
import proofs.«428826_j42820823941612_3_alg».proof.Defs
import proofs.«428826_j42820823941612_3_alg».proof.Proof.Gen.Kernel
import proofs.«428826_j42820823941612_3_alg».proof.Proof.Gen.Kernel.Skeleton
import proofs.«428826_j42820823941612_3_alg».proof.Proof.Gen.Kernel.Launch
import proofs.«428826_j42820823941612_3_alg».proof.Proof.Gen.Kernel.Points
import proofs.«428826_j42820823941612_3_alg».proof.Proof.Gen.Kernel.Frame
import proofs.«428826_j42820823941612_3_alg».proof.Proof.Gen.KernelIdeal
import proofs.«428826_j42820823941612_3_alg».proof.Proof.Gen.KernelIdeal.Skeleton
import proofs.«428826_j42820823941612_3_alg».proof.Proof.Gen.KernelIdeal.Launch
import proofs.«428826_j42820823941612_3_alg».proof.Proof.Gen.KernelIdeal.Points
import proofs.«428826_j42820823941612_3_alg».proof.Proof.Gen.KernelIdeal.Frame
import proofs.«428826_j42820823941612_3_alg».proof.Proof.Gen.ReferenceIdeal
import proofs.«428826_j42820823941612_3_alg».proof.Proof.Gen.Pre_finite_inputs
import proofs.«428826_j42820823941612_3_alg».proof.Proof.Gen.KernelIdeal.Value
import proofs.«428826_j42820823941612_3_alg».proof.Proof.Gen.ReferenceIdeal.Run
import proofs.«428826_j42820823941612_3_alg».proof.Proof.Gen.ReferenceIdeal.Read
import proofs.«428826_j42820823941612_3_alg».proof.Proof.Spec
import proofs.«428826_j42820823941612_3_alg».proof.Proof.Law
import proofs.«428826_j42820823941612_3_alg».proof.Proof.RefSpec
import proofs.«428826_j42820823941612_3_alg».proof.Proof.Finite
import proofs.«428826_j42820823941612_3_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The one rewrite of the idealization: the softmax weights rounded to bf16 and widened back before their row sum
    are, on the extended reals, the weights themselves. -/
theorem preserves : Cert.preserves_Kernel_KernelIdeal :=
  IdealRules.truncf_extf.statement Cert.KernelIdeal.S256x2048 .f32 .bf16

/-- Both programs end at attention of the arguments: the kernel with the normalisation last, the reference with the
    normalisation first, equal on finite inputs. -/
theorem algebraic : Cert.algebraic_KernelIdeal_ReferenceIdeal := by
  intro m ρ m' ρ' hpre hagree
  refine ⟨fun c => Cert.Attn.attnLate (Cert.KernelIdeal.AttnValue.X m c) (Cert.KernelIdeal.AttnValue.Wq m c)
    (Cert.KernelIdeal.AttnValue.Wk m c) (Cert.KernelIdeal.AttnValue.Wv m c), Cert.KernelIdeal.AttnValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3⟩ := Cert.Pre_finite_inputs.Finite.real_of_pre _ _ _ _ (hpre c)
  rw [(hagree c).1, (hagree c).2.1, (hagree c).2.2.1, (hagree c).2.2.2]
  exact (Cert.ReferenceIdeal.Read.val_main_v15_eq _ _ _ _).trans
    ((Cert.ReferenceIdeal.RefValue.result_eq _ _ _ _).trans
      (Cert.Attn.attnLate_eq_attnEarly _ _ _ _ h0 h1 h2 h3).symm)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
